-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x1 : Shape := ⟨2, ![256, 1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S8192x256 .f32) (main_arg1 : FVec F S8192x8192 .f32) (main_arg2 : FVec F S256x1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S8192x256 : Shape := ⟨2, ![8192, 256]⟩
abbrev S8192x8192 : Shape := ⟨2, ![8192, 8192]⟩
abbrev S256x1 : Shape := ⟨2, ![256, 1]⟩
abbrev S8192x1 : Shape := ⟨2, ![8192, 1]⟩
abbrev S1x8192 : Shape := ⟨2, ![1, 8192]⟩
abbrev S2048x512 : Shape := ⟨2, ![2048, 512]⟩
abbrev S512x256 : Shape := ⟨2, ![512, 256]⟩
abbrev S1x512 : Shape := ⟨2, ![1, 512]⟩
abbrev S2048x256 : Shape := ⟨2, ![2048, 256]⟩
abbrev S2048x1 : Shape := ⟨2, ![2048, 1]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x1, .f32⟩
  | .hbm, ⟨3, _⟩ => ⟨S8192x1, .f32⟩
  | .hbm, ⟨4, _⟩ => ⟨S1x8192, .f32⟩
  | .hbm, ⟨5, _⟩ => ⟨S8192x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x512, .f32⟩
  | .local _ .vmem, ⟨6, _⟩ => ⟨S2048x256, .f32⟩
  | .local _ .vmem, ⟨7, _⟩ => ⟨S2048x256, .f32⟩
  | .local _ .vmem, ⟨8, _⟩ => ⟨S2048x1, .f32⟩
  | .local _ .vmem, ⟨9, _⟩ => ⟨S2048x1, .f32⟩
  | .local _ .vmem, ⟨10, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v46 : BitVec 1 := Scalar.cmpi .eq arg1 c15_i32
  let v47 : BitVec 32 := Scalar.extui v46
  let c0_i32_25 : BitVec 32 := 0#32
  let v48 : BitVec 1 := Scalar.cmpi .ne v47 c0_i32_25
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192x1_S1x8192 : S8192x1.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x256 : S2048x1.Broadcasts S2048x256
  bitsLt_bf16_f32 : FTy.bits .bf16 < FTy.bits .f32
  dot_S8192x256_S256x1_S8192x1_1_0_0_1_n_n_wf : DotDims.WF S8192x256 S256x1 S8192x1 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x8192.size a
  hwx0_0 : ∀ i : grid0.Coords, EltTy.bits .f32 = 32 ∨ (Rect.block (s := S8192x8192) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x256.size a
  hwx0_3 : ∀ i : grid0.Coords, EltTy.bits .f32 = 32 ∨ (Rect.block (s := S8192x256) S2048x256.size (cc0_transform_3 i) (hinb0_3 i)).WholeWords (EltTy.packing .f32)

variable [Facts₀]

def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x1 : Shape := ⟨2, ![256, 1]⟩
abbrev S8192x1 : Shape := ⟨2, ![8192, 1]⟩
abbrev S8192 : Shape := ⟨1, ![8192]⟩
abbrev S_ : Shape := ⟨0, ![]⟩
abbrev S1x8192 : Shape := ⟨2, ![1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x1, .f32⟩
  | .hbm, ⟨3, _⟩ => ⟨S8192x1, .f32⟩
  | .hbm, ⟨4, _⟩ => ⟨S8192, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .i1⟩
  | .hbm, ⟨30, _⟩ => ⟨S_, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_call0_v0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_call2_v0 : Ref sig .tc := ⟨.hbm, 31, rfl⟩
abbrev main_call2_v1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  shapeCasts_S8192x1_S8192 : S8192x1.ShapeCasts S8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.OnlineSoftmax.lean ====
/-
  A row of masked-softmax attention, computed two ways over the extended reals.

  The row has 8192 columns, cut into 16 tiles of 512. At column `k` of a tile the data are an adjacency
  entry `a k`, a score `s k` and a value `x k`. The masked logit is `a k * s k` where `a k ≠ 0` and a
  fixed fill `ν` elsewhere; the weight of a column against a shift `μ` is `exp (logit - μ)` where
  `a k ≠ 0` and `0` elsewhere.

  * `run` sweeps the tiles left to right keeping (running maximum, running normaliser, running
    weighted sum), rescaling the last two by `exp (old maximum - new maximum)` at each tile, and
    `finish` divides at the end (by nothing when the normaliser is not positive).
  * `target` is the one-pass form: the maximum over the whole row, the weights against it, the
    normaliser (replaced by `1` when it is not positive), each weight divided by it, the weighted sum.

  `finish_run` says the two agree when every datum is a real number: the rescaling factors telescope
  because `exp (u - v) * exp (v - w) = exp (u - w)` on the reals, and dividing a finite sum by a
  positive real distributes over its terms.
-/
import Idealize.ShloMosaic.PureOps.Ideal
import Idealize.ShloMosaic.Lib.ValueIdx

noncomputable section

open scoped BigOperators

namespace Cert.MaskedSoftmax

open Idealize.ShloMosaic Idealize.ShloMosaic.ValueIdx

/-! ## One tile -/

/-- The masked logit of column `k`: the product where the adjacency entry is nonzero, the fill elsewhere. -/
def logit (ν : EReal) (a s : Fin 512 → EReal) (k : Fin 512) : EReal :=
  if a k ≠ 0 then a k * s k else ν

/-- The largest masked logit of a tile (from `⊥`, the neutral element of `max`). -/
def tileMax (ν : EReal) (a s : Fin 512 → EReal) : EReal :=
  (Finset.univ : Finset (Fin 512)).fold max ⊥ (logit ν a s)

/-- The weight of column `k` against the shift `μ`. -/
def weight (ν μ : EReal) (a s : Fin 512 → EReal) (k : Fin 512) : EReal :=
  if a k ≠ 0 then Ideal.exp (logit ν a s k - μ) else 0

/-- The running maximum after a tile. -/
def newMax (ν : EReal) (a s : Fin 512 → EReal) (m : EReal) : EReal := max m (tileMax ν a s)

/-- One tile of the sweep: the new maximum; the old normaliser and the old weighted sum rescaled to
    it, plus the tile's weights and weighted values against it. -/
def stepT (ν : EReal) (a s x : Fin 512 → EReal) (st : EReal × EReal × EReal) : EReal × EReal × EReal :=
  (newMax ν a s st.1,
   Ideal.exp (st.1 - newMax ν a s st.1) * st.2.1 + ∑ k, weight ν (newMax ν a s st.1) a s k,
   Ideal.exp (st.1 - newMax ν a s st.1) * st.2.2 + ∑ k, weight ν (newMax ν a s st.1) a s k * x k)

/-! ## The sweep over the tiles, and its end -/

/-- The state after tiles `0 … J`, from (`⊥`, `0`, `0`). -/
def run (ν : EReal) (a s x : ℕ → Fin 512 → EReal) : ℕ → EReal × EReal × EReal
  | 0 => stepT ν (a 0) (s 0) (x 0) (⊥, 0, 0)
  | J + 1 => stepT ν (a (J + 1)) (s (J + 1)) (x (J + 1)) (run ν a s x J)

/-- The weighted sum over the normaliser; `0` when the normaliser is not positive. -/
def finish (st : EReal × EReal × EReal) : EReal :=
  st.2.2 * (if 0 < st.2.1 then Ideal.div 1 st.2.1 else 0)

/-! ## The one-pass form -/

/-- The largest masked logit of the whole row. -/
def rowMax (ν : EReal) (a s : ℕ → Fin 512 → EReal) : EReal :=
  (Finset.range 16).fold max ⊥ (fun J => tileMax ν (a J) (s J))

/-- The row's normaliser: the weights against the row maximum, summed. -/
def rowSum (ν : EReal) (a s : ℕ → Fin 512 → EReal) : EReal :=
  ∑ J ∈ Finset.range 16, ∑ k, weight ν (rowMax ν a s) (a J) (s J) k

/-- Each weight over the normaliser (over `1` when the normaliser is not positive), times its value, summed. -/
def target (ν : EReal) (a s x : ℕ → Fin 512 → EReal) : EReal :=
  ∑ J ∈ Finset.range 16, ∑ k : Fin 512,
    Ideal.div (weight ν (rowMax ν a s) (a J) (s J) k) (if 0 < rowSum ν a s then rowSum ν a s else 1) * x J k

/-- The sweep's maximum after tiles `0 … J` is the maximum of their tile maxima. -/
theorem run_fst (ν : EReal) (a s x : ℕ → Fin 512 → EReal) (J : ℕ) :
    (run ν a s x J).1 = (Finset.range (J + 1)).fold max ⊥ (fun J' => tileMax ν (a J') (s J')) := by
  induction J with
  | zero =>
    rw [run, Finset.range_one, Finset.fold_singleton]
    simp only [stepT, newMax]
    rw [max_comm]
  | succ J ih =>
    rw [run, Finset.range_add_one, Finset.fold_insert Finset.notMem_range_self, ← ih]
    simp only [stepT, newMax]
    rw [max_comm]

/-! ## Real data

  When every datum is a real number the whole computation stays inside the reals: the logits, the tile
  maxima, the weights and the three components of the sweep are coerced reals, and the algebra can be
  done in `ℝ`. -/

/-- The coercion of reals into the extended reals is monotone, so it commutes with `max`. -/
theorem coe_max (u v : ℝ) : ((max u v : ℝ) : EReal) = max (u : EReal) (v : EReal) :=
  EReal.coe_strictMono.monotone.map_max

/-- A fold of `max` from `⊥` over a nonempty finite set of coerced reals is a coerced real. -/
theorem fold_max_coe {ι : Type*} [DecidableEq ι] (f : ι → ℝ) (S : Finset ι) (hS : S.Nonempty) :
    ∃ t : ℝ, S.fold max ⊥ (fun i => (f i : EReal)) = (t : EReal) := by
  induction S using Finset.induction_on with
  | empty => exact absurd hS Finset.not_nonempty_empty
  | insert i S hi ih =>
    rw [Finset.fold_insert hi]
    rcases S.eq_empty_or_nonempty with rfl | hne
    · exact ⟨f i, by rw [Finset.fold_empty, max_bot_right]⟩
    · obtain ⟨t, ht⟩ := ih hne
      exact ⟨max (f i) t, by rw [ht, coe_max]⟩

/-- The coercion of a finite sum of reals is the sum of the coercions. -/
theorem coe_sum {ι : Type*} (S : Finset ι) (f : ι → ℝ) :
    ((∑ i ∈ S, f i : ℝ) : EReal) = ∑ i ∈ S, (f i : EReal) := by
  classical
  induction S using Finset.induction_on with
  | empty => rw [Finset.sum_empty, Finset.sum_empty, EReal.coe_zero]
  | insert i S hi ih => rw [Finset.sum_insert hi, Finset.sum_insert hi, EReal.coe_add, ih]

/-- The masked logit of real data. -/
def rlogit (ν : ℝ) (a s : Fin 512 → ℝ) (k : Fin 512) : ℝ := if a k ≠ 0 then a k * s k else ν

/-- The weight of real data against a real shift. -/
def rweight (ν μ : ℝ) (a s : Fin 512 → ℝ) (k : Fin 512) : ℝ :=
  if a k ≠ 0 then Real.exp (rlogit ν a s k - μ) else 0

theorem rweight_nonneg (ν μ : ℝ) (a s : Fin 512 → ℝ) (k : Fin 512) : 0 ≤ rweight ν μ a s k := by
  unfold rweight
  split_ifs
  · exact (Real.exp_pos _).le
  · exact le_rfl

/-- Moving the shift from `u` to `v` multiplies every weight by `exp (u - v)`. -/
theorem rweight_rescale (ν u v : ℝ) (a s : Fin 512 → ℝ) (k : Fin 512) :
    Real.exp (u - v) * rweight ν u a s k = rweight ν v a s k := by
  unfold rweight
  split_ifs
  · rw [← Real.exp_add]
    congr 1
    ring
  · rw [mul_zero]

section Tile

variable {ν' : ℝ} {a' s' x' : Fin 512 → ℝ} {ν : EReal} {a s x : Fin 512 → EReal}

theorem logit_coe (hν : ν = (ν' : EReal)) (ha : ∀ k, a k = (a' k : EReal)) (hs : ∀ k, s k = (s' k : EReal))
    (k : Fin 512) : logit ν a s k = (rlogit ν' a' s' k : EReal) := by
  unfold logit rlogit
  rw [ha k, hs k, hν]
  by_cases h : a' k = 0
  · rw [if_neg (not_not.mpr (EReal.coe_eq_zero.mpr h)), if_neg (not_not.mpr h)]
  · rw [if_pos (EReal.coe_ne_zero.mpr h), if_pos h, EReal.coe_mul]

theorem tileMax_coe (hν : ν = (ν' : EReal)) (ha : ∀ k, a k = (a' k : EReal)) (hs : ∀ k, s k = (s' k : EReal)) :
    ∃ t : ℝ, tileMax ν a s = (t : EReal) := by
  have h : logit ν a s = fun k => (rlogit ν' a' s' k : EReal) := funext (logit_coe hν ha hs)
  rw [tileMax, h]
  exact fold_max_coe _ _ ⟨0, Finset.mem_univ _⟩

theorem weight_coe (hν : ν = (ν' : EReal)) (ha : ∀ k, a k = (a' k : EReal)) (hs : ∀ k, s k = (s' k : EReal))
    (μ : ℝ) (k : Fin 512) : weight ν (μ : EReal) a s k = (rweight ν' μ a' s' k : EReal) := by
  unfold weight rweight
  rw [logit_coe hν ha hs k, ha k, ← EReal.coe_sub, Ideal.exp_coe]
  by_cases h : a' k = 0
  · rw [if_neg (not_not.mpr (EReal.coe_eq_zero.mpr h)), if_neg (not_not.mpr h), EReal.coe_zero]
  · rw [if_pos (EReal.coe_ne_zero.mpr h), if_pos h]

theorem sum_weight_coe (hν : ν = (ν' : EReal)) (ha : ∀ k, a k = (a' k : EReal)) (hs : ∀ k, s k = (s' k : EReal))
    (μ : ℝ) : ∑ k, weight ν (μ : EReal) a s k = ((∑ k, rweight ν' μ a' s' k : ℝ) : EReal) := by
  rw [coe_sum]
  exact Finset.sum_congr rfl fun k _ => weight_coe hν ha hs μ k

theorem sum_weight_mul_coe (hν : ν = (ν' : EReal)) (ha : ∀ k, a k = (a' k : EReal))
    (hs : ∀ k, s k = (s' k : EReal)) (hx : ∀ k, x k = (x' k : EReal)) (μ : ℝ) :
    ∑ k, weight ν (μ : EReal) a s k * x k = ((∑ k, rweight ν' μ a' s' k * x' k : ℝ) : EReal) := by
  rw [coe_sum]
  exact Finset.sum_congr rfl fun k _ => by rw [weight_coe hν ha hs μ k, hx k, EReal.coe_mul]

/-- The first tile: from `(⊥, 0, 0)` the rescaled terms vanish, since `exp ⊥ = 0`. -/
theorem stepT_bot (hν : ν = (ν' : EReal)) (ha : ∀ k, a k = (a' k : EReal)) (hs : ∀ k, s k = (s' k : EReal))
    (hx : ∀ k, x k = (x' k : EReal)) :
    ∃ μ : ℝ, stepT ν a s x (⊥, 0, 0) =
      ((μ : EReal), ((∑ k, rweight ν' μ a' s' k : ℝ) : EReal),
        ((∑ k, rweight ν' μ a' s' k * x' k : ℝ) : EReal)) := by
  obtain ⟨t, ht⟩ := tileMax_coe hν ha hs
  refine ⟨t, ?_⟩
  have hm : newMax ν a s ⊥ = (t : EReal) := by rw [newMax, ht, max_bot_left]
  simp only [stepT, hm]
  rw [EReal.bot_sub, Ideal.exp_bot, mul_zero, zero_add, zero_add, sum_weight_coe hν ha hs,
    sum_weight_mul_coe hν ha hs hx]

/-- A later tile: on a real state the new state is real, with the old normaliser and weighted sum
    multiplied by `exp (old maximum - new maximum)`. -/
theorem stepT_coe (hν : ν = (ν' : EReal)) (ha : ∀ k, a k = (a' k : EReal)) (hs : ∀ k, s k = (s' k : EReal))
    (hx : ∀ k, x k = (x' k : EReal)) (m z c : ℝ) :
    ∃ μ : ℝ, stepT ν a s x ((m : EReal), (z : EReal), (c : EReal)) =
      ((μ : EReal), ((Real.exp (m - μ) * z + ∑ k, rweight ν' μ a' s' k : ℝ) : EReal),
        ((Real.exp (m - μ) * c + ∑ k, rweight ν' μ a' s' k * x' k : ℝ) : EReal)) := by
  obtain ⟨t, ht⟩ := tileMax_coe hν ha hs
  refine ⟨max m t, ?_⟩
  have hm : newMax ν a s (m : EReal) = ((max m t : ℝ) : EReal) := by rw [newMax, ht, coe_max]
  simp only [stepT, hm]
  rw [sum_weight_coe hν ha hs, sum_weight_mul_coe hν ha hs hx, ← EReal.coe_sub, Ideal.exp_coe,
    ← EReal.coe_mul, ← EReal.coe_mul, ← EReal.coe_add, ← EReal.coe_add]

end Tile

section Row

variable {ν' : ℝ} {a' s' x' : ℕ → Fin 512 → ℝ} {ν : EReal} {a s x : ℕ → Fin 512 → EReal}

/-- After tiles `0 … J` the state is real: a maximum `μ`, and the weights of all those tiles against
    `μ`, summed, and summed against the values. The rescaling at each tile moves every earlier weight
    to the new maximum. -/
theorem run_coe (hν : ν = (ν' : EReal)) (ha : ∀ J k, a J k = (a' J k : EReal))
    (hs : ∀ J k, s J k = (s' J k : EReal)) (hx : ∀ J k, x J k = (x' J k : EReal)) (J : ℕ) :
    ∃ μ : ℝ, run ν a s x J =
      ((μ : EReal),
        ((∑ J' ∈ Finset.range (J + 1), ∑ k, rweight ν' μ (a' J') (s' J') k : ℝ) : EReal),
        ((∑ J' ∈ Finset.range (J + 1), ∑ k, rweight ν' μ (a' J') (s' J') k * x' J' k : ℝ) : EReal)) := by
  induction J with
  | zero =>
    obtain ⟨μ, h⟩ := stepT_bot hν (ha 0) (hs 0) (hx 0)
    exact ⟨μ, by rw [run, h, Finset.range_one, Finset.sum_singleton, Finset.sum_singleton]⟩
  | succ J ih =>
    obtain ⟨m, hm⟩ := ih
    obtain ⟨μ, h⟩ := stepT_coe hν (ha (J + 1)) (hs (J + 1)) (hx (J + 1)) m
      (∑ J' ∈ Finset.range (J + 1), ∑ k, rweight ν' m (a' J') (s' J') k)
      (∑ J' ∈ Finset.range (J + 1), ∑ k, rweight ν' m (a' J') (s' J') k * x' J' k)
    refine ⟨μ, ?_⟩
    have e1 : Real.exp (m - μ) * ∑ J' ∈ Finset.range (J + 1), ∑ k, rweight ν' m (a' J') (s' J') k =
        ∑ J' ∈ Finset.range (J + 1), ∑ k, rweight ν' μ (a' J') (s' J') k := by
      rw [Finset.mul_sum]
      refine Finset.sum_congr rfl fun J' _ => ?_
      rw [Finset.mul_sum]
      exact Finset.sum_congr rfl fun k _ => rweight_rescale ν' m μ (a' J') (s' J') k
    have e2 : Real.exp (m - μ) * ∑ J' ∈ Finset.range (J + 1), ∑ k, rweight ν' m (a' J') (s' J') k * x' J' k =
        ∑ J' ∈ Finset.range (J + 1), ∑ k, rweight ν' μ (a' J') (s' J') k * x' J' k := by
      rw [Finset.mul_sum]
      refine Finset.sum_congr rfl fun J' _ => ?_
      rw [Finset.mul_sum]
      exact Finset.sum_congr rfl fun k _ => by rw [← mul_assoc, rweight_rescale]
    rw [run, hm, h, e1, e2, Finset.sum_range_succ _ (J + 1), Finset.sum_range_succ _ (J + 1)]

end Row

/-- The end, on reals. With nonnegative weights `W` of sum `Z`: when `Z` is positive, dividing the weighted
    sum by `Z` is the weighted sum of the divided weights; when it is not, `Z = 0`, every weight is `0`
    and both sides are `0`. -/
theorem finish_real (W X : ℕ → Fin 512 → ℝ) (hW : ∀ J k, 0 ≤ W J k) (Z : ℝ)
    (hZ : Z = ∑ J ∈ Finset.range 16, ∑ k, W J k) :
    ((∑ J ∈ Finset.range 16, ∑ k, W J k * X J k : ℝ) : EReal) *
        (if 0 < (Z : EReal) then Ideal.div 1 (Z : EReal) else 0) =
      ∑ J ∈ Finset.range 16, ∑ k : Fin 512,
        Ideal.div (W J k : EReal) (if 0 < (Z : EReal) then (Z : EReal) else 1) * (X J k : EReal) := by
  by_cases hpos : 0 < Z
  · rw [if_pos (EReal.coe_pos.mpr hpos), if_pos (EReal.coe_pos.mpr hpos), Ideal.div_coe hpos.ne', one_mul,
      ← EReal.coe_mul, Finset.sum_mul, coe_sum]
    refine Finset.sum_congr rfl fun J _ => ?_
    rw [Finset.sum_mul, coe_sum]
    refine Finset.sum_congr rfl fun k _ => ?_
    rw [Ideal.div_coe hpos.ne', ← EReal.coe_mul, ← EReal.coe_mul]
    congr 1
    ring
  · have hnp : ¬ (0 : EReal) < (Z : EReal) := fun h => hpos (EReal.coe_pos.mp h)
    have hZ0 : ∑ J ∈ Finset.range 16, ∑ k, W J k = 0 :=
      le_antisymm (hZ ▸ not_lt.mp hpos) (Finset.sum_nonneg fun J _ => Finset.sum_nonneg fun k _ => hW J k)
    have hW0 : ∀ J ∈ Finset.range 16, ∀ k, W J k = 0 := fun J hJ k =>
      (Finset.sum_eq_zero_iff_of_nonneg fun k _ => hW J k).mp
        ((Finset.sum_eq_zero_iff_of_nonneg fun J _ => Finset.sum_nonneg fun k _ => hW J k).mp hZ0 J hJ)
        k (Finset.mem_univ k)
    rw [if_neg hnp, if_neg hnp, mul_zero]
    symm
    refine Finset.sum_eq_zero fun J hJ => Finset.sum_eq_zero fun k _ => ?_
    rw [hW0 J hJ k, EReal.coe_zero, ← EReal.coe_one, Ideal.div_coe one_ne_zero, zero_mul, zero_mul]

/-- On real data the sweep followed by the final division is the one-pass form. -/
theorem finish_run (ν' : ℝ) (a' s' x' : ℕ → Fin 512 → ℝ) (ν : EReal) (a s x : ℕ → Fin 512 → EReal)
    (hν : ν = (ν' : EReal)) (ha : ∀ J k, a J k = (a' J k : EReal)) (hs : ∀ J k, s J k = (s' J k : EReal))
    (hx : ∀ J k, x J k = (x' J k : EReal)) :
    finish (run ν a s x 15) = target ν a s x := by
  obtain ⟨μ, hrun⟩ := run_coe hν ha hs hx 15
  have hμ : rowMax ν a s = (μ : EReal) := by
    have h := run_fst ν a s x 15
    rw [hrun] at h
    exact h.symm
  have hw : ∀ J k, weight ν (rowMax ν a s) (a J) (s J) k = (rweight ν' μ (a' J) (s' J) k : EReal) :=
    fun J k => by rw [hμ]; exact weight_coe hν (ha J) (hs J) μ k
  have hZ : rowSum ν a s = ((∑ J ∈ Finset.range 16, ∑ k, rweight ν' μ (a' J) (s' J) k : ℝ) : EReal) := by
    rw [rowSum, coe_sum]
    refine Finset.sum_congr rfl fun J _ => ?_
    rw [coe_sum]
    exact Finset.sum_congr rfl fun k _ => hw J k
  rw [finish, hrun, target, hZ]
  simp only [hw, hx]
  exact finish_real _ x' (fun J k => rweight_nonneg ν' μ (a' J) (s' J) k) _ rfl

end Cert.MaskedSoftmax

end
-- ==== Proof.RowTiles.lean ====
/-
  The 8192 columns of a row as 16 tiles of 512, and the three argument arrays read by row and tile:
  a sum (a maximum) over the columns is the sum (the maximum) over the tiles of the tiles' sums
  (maxima), because every column is column `j % 512` of tile `j / 512`.
-/
import proofs.«119822_j65575560675684_2_alg».proof.Proof.OnlineSoftmax

noncomputable section

open scoped BigOperators

namespace Cert.MaskedSoftmax

open Idealize.ShloMosaic Idealize.ShloMosaic.ValueIdx

/-- The fill of the masked logits: the most negative finite single-precision number. -/
abbrev fill : EReal := Ideal.ofBits .f32 0xFF7FFFFF#32

/-! ## The row's columns by tile -/

/-- Column `k` of tile `J` (wrapped into range, so that it is a column for every `J`). -/
def col (J : ℕ) (k : Fin 512) : Fin 8192 := ⟨(512 * J + k.val) % 8192, Nat.mod_lt _ (by norm_num)⟩

/-- For a tile `J < 16` nothing wraps: column `k` of tile `J` is column `k + 512 * J`. -/
theorem col_eq_pair (J : Fin 16) (k : Fin 512) : col J.val k = finProdFinEquiv (J, k) := by
  apply Fin.ext
  have hJ := J.isLt
  have hk := k.isLt
  simp only [col, finProdFinEquiv_apply_val]
  rw [Nat.mod_eq_of_lt (by omega)]
  omega

/-- Every column `j` is column `j % 512` of tile `j / 512`. -/
theorem col_div_mod (j : Fin 8192) : col (j.val / 512) ⟨j.val % 512, Nat.mod_lt _ (by norm_num)⟩ = j := by
  apply Fin.ext
  have hj := j.isLt
  simp only [col]
  rw [Nat.div_add_mod, Nat.mod_eq_of_lt hj]

/-- A sum over the 8192 columns is the sum over the 16 tiles of the sums over their 512 columns. -/
theorem sum_tiles (g : Fin 8192 → EReal) :
    ∑ j, g j = ∑ J ∈ Finset.range 16, ∑ k : Fin 512, g (col J k) := by
  -- the outer sum over `range 16` is a sum over `Fin 16`, the double sum a sum over pairs, and the
  -- pairs (J, k) correspond to the columns by (J, k) ↦ k + 512 * J
  rw [Finset.sum_range (fun J => ∑ k : Fin 512, g (col J k))]
  rw [← Fintype.sum_prod_type' (fun (J : Fin 16) (k : Fin 512) => g (col J.val k))]
  refine (Fintype.sum_equiv (finProdFinEquiv (m := 16) (n := 512)) _ _ ?_).symm
  rintro ⟨J, k⟩
  simp only [col_eq_pair]

/-- A maximum over the 8192 columns is the maximum over the 16 tiles of the maxima over their 512 columns. -/
theorem fold_max_tiles (g : Fin 8192 → EReal) :
    (Finset.univ : Finset (Fin 8192)).fold max ⊥ g
      = (Finset.range 16).fold max ⊥ (fun J => (Finset.univ : Finset (Fin 512)).fold max ⊥ (fun k => g (col J k))) := by
  apply le_antisymm
  · -- each `g j` is below the maximum of its own tile `j / 512`, at that tile's column `j % 512`
    rw [Finset.fold_max_le]
    refine ⟨bot_le, fun j _ => ?_⟩
    rw [Finset.le_fold_max]
    refine Or.inr ⟨j.val / 512, Finset.mem_range.mpr ?_, ?_⟩
    · have hj := j.isLt
      omega
    · rw [Finset.le_fold_max]
      exact Or.inr ⟨⟨j.val % 512, Nat.mod_lt _ (by norm_num)⟩, Finset.mem_univ _, by rw [col_div_mod]⟩
  · -- each entry of each tile is one of the 8192 columns
    rw [Finset.fold_max_le]
    refine ⟨bot_le, fun J _ => ?_⟩
    rw [Finset.fold_max_le]
    refine ⟨bot_le, fun k _ => ?_⟩
    rw [Finset.le_fold_max]
    exact Or.inr ⟨col J k, Finset.mem_univ _, le_rfl⟩

/-! ## The arrays read by row and tile -/

/-- The score of column `j`: row `j` of the inputs against the one column of the projection. -/
def score (X : (⟨2, ![8192, 256]⟩ : Shape).Idx → EReal) (H : (⟨2, ![256, 1]⟩ : Shape).Idx → EReal) (j : Fin 8192) : EReal :=
  ∑ d : Fin 256, X (ix2 j d) * H (ix2 d (0 : Fin 1))

/-- Row `i` of the adjacency, by tile. -/
def adjT (A : (⟨2, ![8192, 8192]⟩ : Shape).Idx → EReal) (i : Fin 8192) (J : ℕ) (k : Fin 512) : EReal := A (ix2 i (col J k))
/-- The scores, by tile. -/
def scoreT (X : (⟨2, ![8192, 256]⟩ : Shape).Idx → EReal) (H : (⟨2, ![256, 1]⟩ : Shape).Idx → EReal) (J : ℕ) (k : Fin 512) : EReal :=
  score X H (col J k)
/-- Column `d` of the inputs, by tile. -/
def valT (X : (⟨2, ![8192, 256]⟩ : Shape).Idx → EReal) (d : Fin 256) (J : ℕ) (k : Fin 512) : EReal := X (ix2 (col J k) d)

/-- The whole result: entry (i, d) is row `i`'s one-pass aggregate of column `d` of the inputs. -/
def G (ν : EReal) (X : (⟨2, ![8192, 256]⟩ : Shape).Idx → EReal) (A : (⟨2, ![8192, 8192]⟩ : Shape).Idx → EReal)
    (H : (⟨2, ![256, 1]⟩ : Shape).Idx → EReal) : (⟨2, ![8192, 256]⟩ : Shape).Idx → EReal :=
  fun i => target ν (adjT A (i 0)) (scoreT X H) (valT X (i 1))

end Cert.MaskedSoftmax

end
-- ==== Proof.RefRow.lean ====
/-
  The reference, entry by entry, is the one-pass form `G`: its scores are the rows of the inputs
  against the projection's column; its masked logits, its row maximum, its weights, its normaliser
  (replaced by `1` where it is not positive) and its quotient are `target`'s, once the sums and the
  maximum over the 8192 columns are taken tile by tile.
-/
import proofs.«119822_j65575560675684_2_alg».proof.Proof.Gen.ReferenceIdeal.Read
import proofs.«119822_j65575560675684_2_alg».proof.Proof.RowTiles
import Idealize.ShloMosaic.PureOps.Reduce

noncomputable section

open scoped BigOperators

namespace Cert.MaskedSoftmax.Ref

open Idealize.ShloMosaic Idealize.ShloMosaic.ValueIdx Cert.ReferenceIdeal Cert.MaskedSoftmax
open Cert.ReferenceIdeal.Read Cert.ReferenceIdeal.Gen

/-! ## Words and bits over the extended reals -/

/-- The word of negative infinity is `⊥`, the neutral element of `max`. -/
theorem ofBits_neg_inf : Ideal.ofBits .f32 0xFF800000#32 = ⊥ := by simp [Ideal.ofBits, Ideal.ieee]

/-- The word of one is `1`: significand `2 ^ 23` at exponent `-23`. -/
theorem ofBits_one : Ideal.ofBits .f32 0x3F800000#32 = 1 := by
  simp [Ideal.ofBits, Ideal.ieee]
  rw [← EReal.coe_mul]; norm_num

/-- A select on the bit of `a ≠ 0` is the `if` on `a ≠ 0`. -/
theorem select_une_zero {α : Type} (a : EReal) (x y : α) :
    Scalar.select (FloatOps.cmpf (F := Ideal) (φ := .f32) CmpFPredicate.une a (FloatOps.ofBits (F := Ideal) FTy.f32 0x00000000#32)) x y
      = if a ≠ 0 then x else y := by
  rw [Ideal.ofBits_def, Ideal.ofBits_zero_f32]
  show Scalar.select (Ideal.cmp CmpFPredicate.une a 0) x y = _
  unfold Ideal.cmp
  by_cases h : a = 0
  · rw [if_neg (not_not.mpr h)]
    simp [h, select_zero]
  · rw [if_pos h]
    simp [h, select_one]

/-- A select on the bit of `z > 0` is the `if` on `0 < z`. -/
theorem select_ogt_zero {α : Type} (z : EReal) (x y : α) :
    Scalar.select (FloatOps.cmpf (F := Ideal) (φ := .f32) CmpFPredicate.ogt z (FloatOps.ofBits (F := Ideal) FTy.f32 0x00000000#32)) x y
      = if 0 < z then x else y := by
  rw [Ideal.ofBits_def, Ideal.ofBits_zero_f32]
  show Scalar.select (Ideal.cmp CmpFPredicate.ogt z 0) x y = _
  unfold Ideal.cmp
  by_cases h : 0 < z
  · rw [if_pos h]
    simp [h, select_one]
  · rw [if_neg h]
    simp [h, select_zero]

/-! ## Row `p` of the reference, column by column -/

variable (X : (⟨S8192x256, .f32⟩ : BufTy).Contents (Elt Ideal)) (A : (⟨S8192x8192, .f32⟩ : BufTy).Contents (Elt Ideal))
    (H : (⟨S256x1, .f32⟩ : BufTy).Contents (Elt Ideal))

/-- The masked logit at (p, j): the adjacency entry times the score of column `j`, the fill where the entry is zero. -/
def refLogit (p j : Fin 8192) : EReal := if A (ix2 p j) ≠ 0 then A (ix2 p j) * score X H j else fill
/-- The largest masked logit of row `p`. -/
def refMax (p : Fin 8192) : EReal := (Finset.univ : Finset (Fin 8192)).fold max ⊥ (refLogit X A H p)
/-- The weight at (p, j) against the row's maximum, `0` where the adjacency entry is zero. -/
def refWeight (p j : Fin 8192) : EReal := if A (ix2 p j) ≠ 0 then Ideal.exp (refLogit X A H p j - refMax X A H p) else 0
/-- The normaliser of row `p`. -/
def refSum (p : Fin 8192) : EReal := ∑ j, refWeight X A H p j

/-- The broadcast scores: at (p, j), whatever the row, the score of column `j`. -/
theorem score_read (p j : Fin 8192) : val_main_v5 (F := Ideal) X H (ix2 p j) = score X H j := by
  rw [val_main_v5_apply, val_main_v4_apply, val_main_v1_apply, val_main_v0_apply]
  unfold score
  refine Finset.sum_congr rfl fun d _ => ?_
  have e1 : lidx_main_v0 (idx_main_v1 (idx_main_v4 (idx_main_v5 (ix2 p j)))) d = ix2 j d :=
    funext fun a => Fin.ext (by match a with | ⟨0, _⟩ => exact Nat.div_one _ | ⟨1, _⟩ => rfl)
  have e2 : ridx_main_v0 (idx_main_v1 (idx_main_v4 (idx_main_v5 (ix2 p j)))) d = ix2 d (0 : Fin 1) :=
    funext fun a => Fin.ext (by match a with | ⟨0, _⟩ => rfl | ⟨1, _⟩ => rfl)
  rw [e1, e2]

/-- The masked logits. -/
theorem logit_read (p j : Fin 8192) : val_main_v7 (F := Ideal) X A H (ix2 p j) = refLogit X A H p j := by
  rw [val_main_v7_apply, val_main_v3_apply, val_main_v6_apply, score_read, val_main_v2_apply, val_main_cst_apply,
    val_main_call0_v0_apply, val_main_cst_0_apply, select_une_zero, Ideal.mulf_def, Ideal.ofBits_def]
  rfl

/-- Row `p` with column `k` put back on the reduced axis is (p, k). -/
theorem lift_row (h : S8192x8192.Reduces [1] S8192) (p : Fin 8192) (k : Fin (S8192x8192.size 1)) :
    h.lift (ix1 p) k = ix2 p (⟨k.val, k.isLt⟩ : Fin 8192) :=
  funext fun a => Fin.ext (by match a with | ⟨0, _⟩ => rfl | ⟨1, _⟩ => rfl)

/-- The row maximum: `max` is commutative and associative, so the reduce over the column axis from
    negative infinity is the fold of `max` from `⊥` over the row's 8192 masked logits. -/
theorem rowmax_read (p : Fin 8192) : val_main_v8 (F := Ideal) X A H (ix1 p) = refMax X A H p := by
  unfold val_main_v8 refMax
  rw [Host.reduce_eq_fold_single FloatOps.maximumf _ _ reducesTo_S8192x8192_S8192_d1 (by decide) h_S_]
  rw [val_main_cst_1_apply, Ideal.ofBits_def, ofBits_neg_inf]
  exact Finset.fold_congr fun k _ => (congrArg (val_main_v7 (F := Ideal) X A H) (lift_row _ p k)).trans (logit_read X A H p _)

/-- The weights: the exponential of the masked logit less the row maximum, `0` where the adjacency entry is zero. -/
theorem weight_read (p j : Fin 8192) : val_main_v13 (F := Ideal) X A H (ix2 p j) = refWeight X A H p j := by
  have e : idx_main_v9 (idx_main_v10 (ix2 p j)) = ix1 p :=
    funext fun a => Fin.ext (by match a with | ⟨0, _⟩ => rfl)
  rw [val_main_v13_apply, val_main_v3_apply, val_main_v2_apply, val_main_cst_apply, val_main_v12_apply, val_main_v11_apply,
    val_main_v10_apply, val_main_v9_apply, e, rowmax_read, logit_read, val_main_call1_v1_apply, val_main_call1_v0_apply,
    val_main_cst_2_apply, select_une_zero, Ideal.hostUnary_exp_def, Ideal.subf_def, Ideal.ofBits_def, Ideal.ofBits_zero_f32]
  rfl

/-- The normaliser: the sum starts from zero, so it is the sum of the row's weights. -/
theorem norm_read (p : Fin 8192) : val_main_v14 (F := Ideal) X A H (ix1 p) = refSum X A H p := by
  rw [val_main_v14_apply, val_main_cst_3_apply, Ideal.ofBits_def, Ideal.ofBits_zero_f32, zero_add]
  unfold refSum
  refine Finset.sum_congr rfl fun k _ => ?_
  have e : idx_main_v14 (ix1 p) k = ix2 p k :=
    funext fun a => Fin.ext (by match a with | ⟨0, _⟩ => rfl | ⟨1, _⟩ => rfl)
  rw [e, weight_read]

/-- The divisor, the same along the row: the normaliser where it is positive, `1` elsewhere. -/
theorem denom_read (p j : Fin 8192) :
    val_main_v19 (F := Ideal) X A H (ix2 p j) = if 0 < refSum X A H p then refSum X A H p else 1 := by
  have e : idx_main_v15 (idx_main_v19 (ix2 p j)) = ix1 p :=
    funext fun a => Fin.ext (by match a with | ⟨0, _⟩ => rfl)
  rw [val_main_v19_apply, val_main_v18_apply, val_main_v17_apply, val_main_v15_apply, e, norm_read, val_main_v16_apply,
    val_main_cst_4_apply, val_main_call2_v1_apply, val_main_call2_v0_apply, val_main_cst_5_apply, select_ogt_zero,
    Ideal.ofBits_def, ofBits_one]

/-- Entry (p, q) of the result: each weight of row `p` over the divisor, times column `q` of the inputs, summed over the columns. -/
theorem ref_read (p : Fin 8192) (q : Fin 256) :
    val_main_v21 (F := Ideal) X A H (ix2 p q)
      = ∑ j : Fin 8192, Ideal.div (refWeight X A H p j) (if 0 < refSum X A H p then refSum X A H p else 1) * X (ix2 j q) := by
  rw [val_main_v21_apply]
  refine Finset.sum_congr rfl fun k _ => ?_
  have e1 : lidx_main_v21 (ix2 p q) k = ix2 p k :=
    funext fun a => Fin.ext (by match a with | ⟨0, _⟩ => rfl | ⟨1, _⟩ => rfl)
  have e2 : ridx_main_v21 (ix2 p q) k = ix2 k q :=
    funext fun a => Fin.ext (by match a with | ⟨0, _⟩ => rfl | ⟨1, _⟩ => rfl)
  rw [e1, e2, val_main_v20_apply, weight_read, denom_read, Ideal.hostDivf_def]

/-! ## The one-pass form's row, tile by tile, is the same row -/

/-- The maximum of the tile maxima is the row's maximum: a tile's masked logit at column `k` is the
    row's at column `col J k`. -/
theorem rowMax_tiles (p : Fin 8192) : rowMax fill (adjT A p) (scoreT X H) = refMax X A H p := by
  unfold rowMax refMax
  rw [fold_max_tiles (refLogit X A H p)]
  rfl

/-- The sum of the tiles' weight sums is the row's normaliser. -/
theorem rowSum_tiles (p : Fin 8192) : rowSum fill (adjT A p) (scoreT X H) = refSum X A H p := by
  unfold rowSum refSum
  rw [rowMax_tiles, sum_tiles (refWeight X A H p)]
  rfl

/-- The reference's result array, as a function of the three argument arrays, is `G` at the fill. -/
theorem ref_eq (X : (⟨S8192x256, .f32⟩ : BufTy).Contents (Elt Ideal)) (A : (⟨S8192x8192, .f32⟩ : BufTy).Contents (Elt Ideal))
    (H : (⟨S256x1, .f32⟩ : BufTy).Contents (Elt Ideal)) :
    Cert.ReferenceIdeal.Read.val_main_v21 (F := Ideal) X A H = G fill X A H := by
  funext i
  obtain ⟨p, q, rfl⟩ : ∃ (p : Fin 8192) (q : Fin 256), i = ix2 p q := ⟨i 0, i 1, eq_ix2 i⟩
  rw [ref_read]
  show _ = target fill (adjT A p) (scoreT X H) (valT X q)
  unfold target
  rw [rowMax_tiles, rowSum_tiles,
    sum_tiles (fun j => Ideal.div (refWeight X A H p j) (if 0 < refSum X A H p then refSum X A H p else 1) * X (ix2 j q))]
  rfl

end Cert.MaskedSoftmax.Ref

end
-- ==== Proof.Pieces.lean ====
/-
  What one pass of the kernel body leaves in each buffer it carries from one column tile to the next,
  as a function of the three input blocks and of what the buffers held before.

  The body keeps three buffers per row tile: the running maximum `m`, the running normaliser `l` and
  the running weighted sum `acc`. At every column tile it replaces (m, l, acc) by
    m'   = max m (largest masked logit of the tile),
    l'   = exp (m - m') * l + (sum of the tile's weights against m'),
    acc' = exp (m - m') * acc + (tile's weights against m') times (tile's rows of the inputs),
  each a pure term of the blocks and of the old contents. At the first column tile the old contents
  are what the body itself has just stored there (-inf, 0, 0); at the last one it also writes out
  acc' scaled by 1 / l' (by 0 where l' is not positive). Every buffer is stored whole, so what it
  holds afterwards is the stored term itself.
-/
import proofs.«119822_j65575560675684_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.MaskedSoftmax.Pieces

open Cert.KernelIdeal Cert.KernelIdeal.Gen

variable {F : FTy → Type} [FloatOps F]

/-- The offsets of a whole-buffer access are all zero. -/
theorem hz : (![0, 0] : Fin 2 → Nat) = fun _ => 0 := funext fun a => by fin_cases a <;> rfl

/-! ## A middle column tile: the update over the carried contents -/

/-- The running maximum after a middle column tile. -/
theorem max_B (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : ¬cond0_0 i) (hc1 : ¬cond0_1 i)
    (x0 : Vec F S2048x512 .f32) (x1 : Vec F S512x256 .f32) (x2 : Vec F S1x512 .f32) (xs0 xs1 : Vec F S2048x1 .f32) (xs2 : Vec F S2048x256 .f32) :
    sout0_B_0 c i arg2 harg2 arg3 harg3 arg4 harg4 arg5 harg5 arg6 harg6 arg7 harg7 arg8 harg8 hc0 hc1 x0 x1 x2 xs0 xs1 xs2 = k0_pay2 (k0_pay9 x0 x2 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-- The running normaliser after a middle column tile. -/
theorem norm_B (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : ¬cond0_0 i) (hc1 : ¬cond0_1 i)
    (x0 : Vec F S2048x512 .f32) (x1 : Vec F S512x256 .f32) (x2 : Vec F S1x512 .f32) (xs0 xs1 : Vec F S2048x1 .f32) (xs2 : Vec F S2048x256 .f32) :
    sout0_B_1 c i arg2 harg2 arg3 harg3 arg4 harg4 arg5 harg5 arg6 harg6 arg7 harg7 arg8 harg8 hc0 hc1 x0 x1 x2 xs0 xs1 xs2 = k0_pay12 x0 x2 xs0 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-- The running weighted sum after a middle column tile. -/
theorem acc_B (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : ¬cond0_0 i) (hc1 : ¬cond0_1 i)
    (x0 : Vec F S2048x512 .f32) (x1 : Vec F S512x256 .f32) (x2 : Vec F S1x512 .f32) (xs0 xs1 : Vec F S2048x1 .f32) (xs2 : Vec F S2048x256 .f32) :
    sout0_B_2 c i arg2 harg2 arg3 harg3 arg4 harg4 arg5 harg5 arg6 harg6 arg7 harg7 arg8 harg8 hc0 hc1 x0 x1 x2 xs0 xs1 xs2 = k0_pay1 x1 (k0_pay10 x0 x2 xs0 xs0) (k0_pay11 x0 x2 xs0) xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-! ## The first column tile: the same update over the start values the body has just stored -/

/-- The running maximum after the first column tile: the update over -inf. -/
theorem max_A (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : cond0_0 i) (hc1 : ¬cond0_1 i)
    (x0 : Vec F S2048x512 .f32) (x1 : Vec F S512x256 .f32) (x2 : Vec F S1x512 .f32) :
    sout0_A_0 c i arg2 harg2 arg3 harg3 arg4 harg4 arg5 harg5 arg6 harg6 arg7 harg7 arg8 harg8 hc0 hc1 x0 x1 x2 = k0_pay2 (k0_pay9 x0 x2 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-- The running normaliser after the first column tile: the update over -inf and 0. -/
theorem norm_A (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : cond0_0 i) (hc1 : ¬cond0_1 i)
    (x0 : Vec F S2048x512 .f32) (x1 : Vec F S512x256 .f32) (x2 : Vec F S1x512 .f32) :
    sout0_A_1 c i arg2 harg2 arg3 harg3 arg4 harg4 arg5 harg5 arg6 harg6 arg7 harg7 arg8 harg8 hc0 hc1 x0 x1 x2 = k0_pay12 x0 x2 k0_pay4 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz, View.readCov_unit_zero (S := S2048x1) _ hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-- The running weighted sum after the first column tile: the update over -inf and 0. -/
theorem acc_A (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : cond0_0 i) (hc1 : ¬cond0_1 i)
    (x0 : Vec F S2048x512 .f32) (x1 : Vec F S512x256 .f32) (x2 : Vec F S1x512 .f32) :
    sout0_A_2 c i arg2 harg2 arg3 harg3 arg4 harg4 arg5 harg5 arg6 harg6 arg7 harg7 arg8 harg8 hc0 hc1 x0 x1 x2 = k0_pay1 x1 (k0_pay10 x0 x2 k0_pay4 k0_pay4) (k0_pay11 x0 x2 k0_pay4) k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x256) hz, View.readCov_unit_zero (S := S2048x256) _ hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-! ## The last column tile: the update, then the quotient written out -/

/-- The running maximum after the last column tile. -/
theorem max_C (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : ¬cond0_0 i) (hc1 : cond0_1 i)
    (x0 : Vec F S2048x512 .f32) (x1 : Vec F S512x256 .f32) (x2 : Vec F S1x512 .f32) (xs0 xs1 : Vec F S2048x1 .f32) (xs2 : Vec F S2048x256 .f32) :
    sout0_C_0 c i arg2 harg2 arg3 harg3 arg4 harg4 arg5 harg5 arg6 harg6 arg7 harg7 arg8 harg8 hc0 hc1 x0 x1 x2 xs0 xs1 xs2 = k0_pay2 (k0_pay9 x0 x2 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-- The running normaliser after the last column tile. -/
theorem norm_C (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : ¬cond0_0 i) (hc1 : cond0_1 i)
    (x0 : Vec F S2048x512 .f32) (x1 : Vec F S512x256 .f32) (x2 : Vec F S1x512 .f32) (xs0 xs1 : Vec F S2048x1 .f32) (xs2 : Vec F S2048x256 .f32) :
    sout0_C_1 c i arg2 harg2 arg3 harg3 arg4 harg4 arg5 harg5 arg6 harg6 arg7 harg7 arg8 harg8 hc0 hc1 x0 x1 x2 xs0 xs1 xs2 = k0_pay12 x0 x2 xs0 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-- The running weighted sum after the last column tile. -/
theorem acc_C (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : ¬cond0_0 i) (hc1 : cond0_1 i)
    (x0 : Vec F S2048x512 .f32) (x1 : Vec F S512x256 .f32) (x2 : Vec F S1x512 .f32) (xs0 xs1 : Vec F S2048x1 .f32) (xs2 : Vec F S2048x256 .f32) :
    sout0_C_2 c i arg2 harg2 arg3 harg3 arg4 harg4 arg5 harg5 arg6 harg6 arg7 harg7 arg8 harg8 hc0 hc1 x0 x1 x2 xs0 xs1 xs2 = k0_pay1 x1 (k0_pay10 x0 x2 xs0 xs0) (k0_pay11 x0 x2 xs0) xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

/-- The output block the last column tile writes: the updated weighted sum over the updated normaliser. -/
theorem out_C (c : Dev nD) (i : grid0.Coords) (arg2 : Memref sig .tc .vmem S2048x512 .f32) (harg2 : arg2.IsWhole) (arg3 : Memref sig .tc .vmem S512x256 .f32) (harg3 : arg3.IsWhole) (arg4 : Memref sig .tc .vmem S1x512 .f32) (harg4 : arg4.IsWhole) (arg5 : Memref sig .tc .vmem S2048x256 .f32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x256 .f32) (harg8 : arg8.IsWhole) (hc0 : ¬cond0_0 i) (hc1 : cond0_1 i)
    (x0 : Vec F S2048x512 .f32) (x1 : Vec F S512x256 .f32) (x2 : Vec F S1x512 .f32) (xs0 xs1 : Vec F S2048x1 .f32) (xs2 : Vec F S2048x256 .f32) :
    out0_C_3 c i arg2 harg2 arg3 harg3 arg4 harg4 arg5 harg5 arg6 harg6 arg7 harg7 arg8 harg8 hc0 hc1 x0 x1 x2 xs0 xs1 xs2 = k0_pay3 (k0_pay12 x0 x2 xs0 xs0 xs1) (k0_pay12 x0 x2 xs0 xs0 xs1) (k0_pay1 x1 (k0_pay10 x0 x2 xs0 xs0) (k0_pay11 x0 x2 xs0) xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread,
    View.readCov_unit_zero (S := S2048x1) _ hz, View.readCov_unit_zero (S := S2048x256) _ hz,
    View.ld_unit_zero (S := S2048x512) hz, View.ld_unit_zero (S := S512x256) hz, View.ld_unit_zero (S := S1x512) hz, View.ld_unit_zero (S := S2048x1) hz, View.ld_unit_zero (S := S2048x256) hz]

end Cert.MaskedSoftmax.Pieces

end
-- ==== Proof.TileStep.lean ====
/-
  The kernel body at one entry. For block row `r` (and output column `d`) the three values the body
  stores back into its carried buffers are the three components of one tile step `stepT` of the sweep,
  taken at the tile whose adjacency entries are row `r` of the adjacency block, whose scores are the
  score block's one row, and whose values are column `d` of the inputs block; the buffers' previous
  contents at that entry are the step's incoming state. What the first column tile stores before it
  is the sweep's start (`⊥`, `0`, `0`), and what the last one writes out is `finish`.
-/
import proofs.«119822_j65575560675684_2_alg».proof.Proof.Gen.KernelIdeal.Skeleton
import proofs.«119822_j65575560675684_2_alg».proof.Proof.RowTiles
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MaskedSoftmax.Body

open Idealize.ShloMosaic Idealize.ShloMosaic.ValueIdx Cert.KernelIdeal Cert.KernelIdeal.Gen Cert.MaskedSoftmax

/-- Row `r` of an adjacency block. -/
def adjRow (x0 : Vec Ideal S2048x512 .f32) (r : Fin 2048) : Fin 512 → EReal := fun k => x0 (ix2 r k)
/-- The one row of a score block. -/
def scoreRow (x2 : Vec Ideal S1x512 .f32) : Fin 512 → EReal := fun k => x2 (ix2 (0 : Fin 1) k)
/-- Column `d` of an inputs block. -/
def valCol (x1 : Vec Ideal S512x256 .f32) (d : Fin 256) : Fin 512 → EReal := fun k => x1 (ix2 k d)

/-! ## Layout operations at the shapes the body uses -/

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` of a `[2048, 512]` block with column `k` put back is the entry `(r, k)`. -/
private theorem lift_row (r : Fin 2048) (k : Fin 512) :
    reduces_S2048x512_S2048.lift (ix1 r) k = ix2 r k := by
  funext c
  apply Fin.ext
  match c with
  | ⟨0, _⟩ => rfl
  | ⟨1, _⟩ => rfl

/-! ## The operand indices of the body's one matrix product

At output entry `i` and contraction index `q` the left operand is read at `(i 0, q)` and the right at `(q, i 1)`. -/

private theorem lhs_dot_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
private theorem lhs_dot_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
private theorem rhs_dot_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
private theorem rhs_dot_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The product of a `[2048, 512]` and a `[512, 256]` block into a zero accumulator, at `(r, d)`: the sum over the
    512 columns of the left block's row `r` times the right block's column `d`. -/
private theorem matmul_at (A : FVec Ideal S2048x512 .bf16) (B : FVec Ideal S512x256 .bf16) (r : Fin 2048) (d : Fin 256) :
    matmul dot_S2048x512_S512x256_S2048x256_1_0_0_1_n_n none A B (constant S2048x256 .f32 0x00000000#32) (ix2 r d)
      = ∑ k : Fin 512, A (ix2 r k) * B (ix2 k d) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 r d) ((contrEquiv1 dot_S2048x512_S512x256_S2048x256_1_0_0_1_n_n 512 rfl rfl).symm k) = ix2 r k := funext fun a => Fin.ext (by
    match a with
    | ⟨0, _⟩ => exact lhs_dot_0 _ _
    | ⟨1, _⟩ => exact (lhs_dot_1 _ _).trans hk)
  have er : dot_S2048x512_S512x256_S2048x256_1_0_0_1_n_n.rhsIdx (ix2 r d) ((contrEquiv1 dot_S2048x512_S512x256_S2048x256_1_0_0_1_n_n 512 rfl rfl).symm k) = ix2 k d := funext fun a => Fin.ext (by
    match a with
    | ⟨0, _⟩ => exact (rhs_dot_0 _ _).trans hk
    | ⟨1, _⟩ => exact rhs_dot_1 _ _)
  rw [el, er]

/-! ## The literals and the two comparisons -/

/-- The pattern `0xFF800000` is `-∞`. -/
private theorem ofBits_negInf : Ideal.ofBits .f32 0xFF800000#32 = ⊥ := by
  simp [Ideal.ofBits, Ideal.ieee]

/-- The pattern `0x3F800000` is `1`: significand `2 ^ 23` at exponent `-23`. -/
private theorem ofBits_one : Ideal.ofBits .f32 0x3F800000#32 = 1 := by
  simp [Ideal.ofBits, Ideal.ieee]
  rw [← EReal.coe_mul, ← EReal.coe_one]
  congr 1
  norm_num

/-- A select on "`x` differs from `y`" is the `if`. -/
private theorem select_cmp_one {α : Type} (x y : EReal) (A B : α) :
    Scalar.select (Ideal.cmp .one x y) A B = if x ≠ y then A else B := by
  by_cases h : x ≠ y
  · rw [if_pos h, show Ideal.cmp .one x y = 1#1 by simp [Ideal.cmp, h]]
    exact select_one A B
  · rw [if_neg h, show Ideal.cmp .one x y = 0#1 by simp [Ideal.cmp, h]]
    exact select_zero A B

/-- A select on "`x` is above `y`" is the `if`. -/
private theorem select_cmp_ogt {α : Type} (x y : EReal) (A B : α) :
    Scalar.select (Ideal.cmp .ogt x y) A B = if y < x then A else B := by
  by_cases h : y < x
  · rw [if_pos h, show Ideal.cmp .ogt x y = 1#1 by simp [Ideal.cmp, h]]
    exact select_one A B
  · rw [if_neg h, show Ideal.cmp .ogt x y = 0#1 by simp [Ideal.cmp, h]]
    exact select_zero A B

variable (x0 : Vec Ideal S2048x512 .f32) (x1 : Vec Ideal S512x256 .f32) (x2 : Vec Ideal S1x512 .f32)
  (xs0 xs1 : Vec Ideal S2048x1 .f32) (xs2 : Vec Ideal S2048x256 .f32) (r : Fin 2048) (d : Fin 256)

/-! ## The body's intermediate values at an entry -/

/-- The masked scores at `(r, k)`: the masked logit of column `k`. -/
private theorem logit_at (k : Fin 512) :
    k0_pay8 (F := Ideal) x0 x2 (ix2 r k) = logit fill (adjRow x0 r) (scoreRow x2) k := by
  unfold k0_pay8 k0_pay7 logit adjRow scoreRow
  dsimp only
  rw [select_apply, cmpf_apply, mulf_apply, broadcastTo_1b_ab_apply, shapeCast_self, broadcast_apply, broadcast_apply]
  show Scalar.select (Ideal.cmp .one (x0 (ix2 r k)) (Ideal.ofBits .f32 0x00000000#32)) _ _ = _
  rw [Ideal.ofBits_zero_f32, select_cmp_one]
  rfl

/-- The row maximum of the masked scores at row `r`: the tile's largest masked logit. -/
private theorem tileMax_at :
    multiReduction (F := Ideal) .maximumf [1] S2048 (k0_pay8 x0 x2) 0xFF800000#32 reduces_S2048x512_S2048 (.inl rfl) rfl (ix1 r)
      = tileMax fill (adjRow x0 r) (scoreRow x2) := by
  refine (Ideal.multiReduction_maximumf_single (k0_pay8 (F := Ideal) x0 x2) _ reduces_S2048x512_S2048 _ _ (ix1 r)).trans ?_
  unfold tileMax
  show (Finset.univ : Finset (Fin 512)).fold max (Ideal.ofBits .f32 0xFF800000#32) _ = _
  rw [ofBits_negInf]
  have e : (k0_pay8 (F := Ideal) x0 x2 ∘ reduces_S2048x512_S2048.lift (ix1 r)) = logit fill (adjRow x0 r) (scoreRow x2) :=
    funext fun (k : Fin 512) => by
      show k0_pay8 (F := Ideal) x0 x2 (reduces_S2048x512_S2048.lift (ix1 r) k) = _
      rw [lift_row, logit_at]
  exact congrArg (fun f => (Finset.univ : Finset (Fin 512)).fold max ⊥ f) e

/-- The new running maximum at row `r`. -/
private theorem newMax_at :
    k0_pay9 (F := Ideal) x0 x2 xs0 (ix2 r (0 : Fin 1))
      = newMax fill (adjRow x0 r) (scoreRow x2) (xs0 (ix2 r (0 : Fin 1))) := by
  unfold k0_pay9 newMax
  dsimp only
  rw [maximumf_apply, shapeCast_a_a1_apply, tileMax_at]

/-- The rescaling factor at row `r`. -/
private theorem scale_at :
    k0_pay10 (F := Ideal) x0 x2 xs0 xs0 (ix2 r (0 : Fin 1))
      = Ideal.exp (xs0 (ix2 r (0 : Fin 1)) - newMax fill (adjRow x0 r) (scoreRow x2) (xs0 (ix2 r (0 : Fin 1)))) := by
  unfold k0_pay10
  show Ideal.exp (subf xs0 (k0_pay9 x0 x2 xs0) (ix2 r (0 : Fin 1))) = _
  rw [subf_apply, newMax_at]

/-- The tile's weights at `(r, k)`, against the new running maximum. -/
private theorem weight_at (k : Fin 512) :
    k0_pay11 (F := Ideal) x0 x2 xs0 (ix2 r k)
      = weight fill (newMax fill (adjRow x0 r) (scoreRow x2) (xs0 (ix2 r (0 : Fin 1)))) (adjRow x0 r) (scoreRow x2) k := by
  unfold k0_pay11 k0_pay7 weight
  dsimp only
  rw [select_apply, cmpf_apply, broadcast_apply]
  show Scalar.select (Ideal.cmp .one (x0 (ix2 r k)) (Ideal.ofBits .f32 0x00000000#32))
      (Ideal.exp (subf (k0_pay8 x0 x2) (broadcastTo S2048x512 (k0_pay9 x0 x2 xs0) broadcasts_S2048x1_S2048x512) (ix2 r k)))
      (Ideal.ofBits .f32 0x00000000#32) = _
  rw [Ideal.ofBits_zero_f32, select_cmp_one, subf_apply, broadcastTo_a1_ab_apply, logit_at, newMax_at]
  rfl

/-- The running maximum stored back, at row `r`. -/
theorem max_at :
    k0_pay2 (F := Ideal) (k0_pay9 x0 x2 xs0) (ix2 r (0 : Fin 1))
      = (stepT fill (adjRow x0 r) (scoreRow x2) (valCol x1 d) (xs0 (ix2 r (0 : Fin 1)), xs1 (ix2 r (0 : Fin 1)), xs2 (ix2 r d))).1 := by
  unfold k0_pay2 stepT
  dsimp only
  rw [shapeCast_self, newMax_at]

/-- The running normaliser stored back, at row `r`. -/
theorem norm_at :
    k0_pay12 (F := Ideal) x0 x2 xs0 xs0 xs1 (ix2 r (0 : Fin 1))
      = (stepT fill (adjRow x0 r) (scoreRow x2) (valCol x1 d) (xs0 (ix2 r (0 : Fin 1)), xs1 (ix2 r (0 : Fin 1)), xs2 (ix2 r d))).2.1 := by
  unfold k0_pay12 stepT
  dsimp only
  rw [shapeCast_self, addf_apply, mulf_apply, scale_at, shapeCast_a_a1_apply]
  refine congrArg _ ?_
  refine (Ideal.multiReduction_add_single (k0_pay11 (F := Ideal) x0 x2 xs0) _ reduces_S2048x512_S2048 _ _ (ix1 r)).trans ?_
  show ∑ k : Fin 512, k0_pay11 (F := Ideal) x0 x2 xs0 (reduces_S2048x512_S2048.lift (ix1 r) k) = _
  refine Finset.sum_congr rfl fun k _ => ?_
  rw [lift_row, weight_at]

/-- The running weighted sum stored back, at (r, d). -/
theorem acc_at :
    k0_pay1 (F := Ideal) x1 (k0_pay10 x0 x2 xs0 xs0) (k0_pay11 x0 x2 xs0) xs2 (ix2 r d)
      = (stepT fill (adjRow x0 r) (scoreRow x2) (valCol x1 d) (xs0 (ix2 r (0 : Fin 1)), xs1 (ix2 r (0 : Fin 1)), xs2 (ix2 r d))).2.2 := by
  unfold k0_pay1 stepT
  dsimp only
  rw [shapeCast_self, addf_apply, mulf_apply, broadcastTo_a1_ab_apply, scale_at]
  refine congrArg _ ?_
  rw [matmul_at]
  refine Finset.sum_congr rfl fun k _ => ?_
  rw [truncf_apply, truncf_apply, weight_at]
  rfl

/-- What the last column tile writes out, at (r, d): the weighted sum over the normaliser. -/
theorem out_at (μ : EReal) (l : Vec Ideal S2048x1 .f32) (acc : Vec Ideal S2048x256 .f32) :
    k0_pay3 (F := Ideal) l l acc (ix2 r d) = finish (μ, l (ix2 r (0 : Fin 1)), acc (ix2 r d)) := by
  unfold k0_pay3 finish
  dsimp only
  rw [mulf_apply, broadcastTo_a1_ab_apply, select_apply, cmpf_apply, divf_apply, broadcast_apply, broadcast_apply]
  show acc (ix2 r d) * Scalar.select (Ideal.cmp .ogt (l (ix2 r (0 : Fin 1))) (Ideal.ofBits .f32 0x00000000#32))
      (Ideal.div (Ideal.ofBits .f32 0x3F800000#32) (l (ix2 r (0 : Fin 1)))) (Ideal.ofBits .f32 0x00000000#32) = _
  rw [Ideal.ofBits_zero_f32, ofBits_one, select_cmp_ogt]

/-- What the first column tile stores before the step: the sweep's start. -/
theorem reset_max : k0_pay4 (F := Ideal) (ix2 r (0 : Fin 1)) = ⊥ := by
  unfold k0_pay4
  rw [shapeCast_self]
  exact ofBits_negInf
theorem reset_norm : k0_pay5 (F := Ideal) (ix2 r (0 : Fin 1)) = 0 := by
  unfold k0_pay5
  rw [shapeCast_self]
  exact Ideal.ofBits_zero_f32
theorem reset_acc : k0_pay6 (F := Ideal) (ix2 r d) = 0 := by
  unfold k0_pay6
  rw [shapeCast_self]
  exact Ideal.ofBits_zero_f32

end Cert.MaskedSoftmax.Body

end
-- ==== Proof.Blocks.lean ====
/-
  The three input blocks at a grid point, read as tiles of the argument arrays. Grid point `t` is row
  tile `t / 16`, column tile `t % 16`. Its adjacency block is rows `2048 (t / 16) …` and columns
  `512 (t % 16) …` of the adjacency; its inputs block is rows `512 (t % 16) …` of the inputs; its score
  block is columns `512 (t % 16) …` of the scores, which the host computed before the region as the
  inputs against the projection's column, laid out as one row.
-/
import proofs.«119822_j65575560675684_2_alg».proof.Proof.Gen.KernelIdeal.Frame
import proofs.«119822_j65575560675684_2_alg».proof.Proof.TileStep
import Idealize.ShloMosaic.Lib.StableHlo.Run

noncomputable section

open scoped BigOperators

namespace Cert.MaskedSoftmax.Blocks

open Idealize.ShloMosaic Idealize.ShloMosaic.TcCoe Idealize.ShloMosaic.ValueIdx Idealize.SL.Sem
open Cert.KernelIdeal Cert.KernelIdeal.Gen Cert.MaskedSoftmax

variable (m : (ℓ : Loc nD τ sig) → Buf (Elt Ideal) ℓ)

/-- The three argument arrays as launched. -/
abbrev argX (c : Dev nD) : (⟨2, ![8192, 256]⟩ : Shape).Idx → EReal := m ((c : Thread nD τ).loc main_arg0)
abbrev argA (c : Dev nD) : (⟨2, ![8192, 8192]⟩ : Shape).Idx → EReal := m ((c : Thread nD τ).loc main_arg1)
abbrev argH (c : Dev nD) : (⟨2, ![256, 1]⟩ : Shape).Idx → EReal := m ((c : Thread nD τ).loc main_arg2)

/-- The input blocks at a point, at their literal types. -/
abbrev adjBlk (c : Dev nD) (t : Fin cfg0.N) : Vec Ideal S2048x512 .f32 := iblk m c 0 t
abbrev inpBlk (c : Dev nD) (t : Fin cfg0.N) : Vec Ideal S512x256 .f32 := iblk m c 1 t
abbrev scoBlk (c : Dev nD) (t : Fin cfg0.N) : Vec Ideal S1x512 .f32 := iblk m c 2 t

/-- The row of the adjacency that block row `r` is at grid point `t` (wrapped into range). -/
def grow (t : Fin cfg0.N) (r : Fin 2048) : Fin 8192 := ⟨(2048 * (t.val / 16) + r.val) % 8192, Nat.mod_lt _ (by norm_num)⟩

/-! ## The block indices at a grid point, decided over the 64 points -/

/-- The adjacency's block at `t`: block row `t / 16`, block column `t % 16`. -/
theorem idx0 : ∀ t : Fin cfg0.N, win0_0.index t (0 : Fin 2) = t.val / 16 ∧ win0_0.index t (1 : Fin 2) = t.val % 16 :=
  (by decide +kernel : ∀ t : Fin grid0.N, _)
/-- The inputs' block at `t`: block row `t % 16`, the one block column. -/
theorem idx1 : ∀ t : Fin cfg0.N, win0_1.index t (0 : Fin 2) = t.val % 16 ∧ win0_1.index t (1 : Fin 2) = 0 :=
  (by decide +kernel : ∀ t : Fin grid0.N, _)
/-- The scores' block at `t`: the one block row, block column `t % 16`. -/
theorem idx2 : ∀ t : Fin cfg0.N, win0_2.index t (0 : Fin 2) = 0 ∧ win0_2.index t (1 : Fin 2) = t.val % 16 :=
  (by decide +kernel : ∀ t : Fin grid0.N, _)
/-- A grid point is below 64. -/
theorem lt64 (t : Fin cfg0.N) : t.val < 64 := lt_of_lt_of_eq t.isLt (show cfg0.N = 64 from N_0)

/-- Row `r` of the adjacency block at `t` is tile `t % 16` of row `grow t r` of the adjacency. -/
theorem adj_block (c : Dev nD) (t : Fin cfg0.N) (r : Fin 2048) :
    Body.adjRow (adjBlk m c t) r = adjT (argA m c) (grow t r) (t.val % 16) := by
  funext k
  show V m c main_arg1 (((cfg0.win 0).blk t).view.emb (ix2 r k)) = m ((c : Thread nD τ).loc main_arg1) (ix2 (grow t r) (col (t.val % 16) k))
  rw [V_main_arg1]
  refine congrArg _ (funext fun a => Fin.ext ?_)
  obtain ⟨e0, e1⟩ := idx0 t
  have ht := lt64 t
  have hr : r.val < 2048 := r.isLt
  have hk : k.val < 512 := k.isLt
  match a with
  | ⟨0, _⟩ =>
    show win0_0.index t (0 : Fin 2) * 2048 + 1 * r.val = (2048 * (t.val / 16) + r.val) % 8192
    rw [e0]; omega
  | ⟨1, _⟩ =>
    show win0_0.index t (1 : Fin 2) * 512 + 1 * k.val = (512 * (t.val % 16) + k.val) % 8192
    rw [e1]; omega

/-- Column `d` of the inputs block at `t` is tile `t % 16` of column `d` of the inputs. -/
theorem val_block (c : Dev nD) (t : Fin cfg0.N) (d : Fin 256) :
    Body.valCol (inpBlk m c t) d = valT (argX m c) d (t.val % 16) := by
  funext k
  show V m c main_arg0 (((cfg0.win 1).blk t).view.emb (ix2 k d)) = m ((c : Thread nD τ).loc main_arg0) (ix2 (col (t.val % 16) k) d)
  rw [V_main_arg0]
  refine congrArg _ (funext fun a => Fin.ext ?_)
  obtain ⟨e0, e1⟩ := idx1 t
  have ht := lt64 t
  have hk : k.val < 512 := k.isLt
  have hd : d.val < 256 := d.isLt
  match a with
  | ⟨0, _⟩ =>
    show win0_1.index t (0 : Fin 2) * 512 + 1 * k.val = (512 * (t.val % 16) + k.val) % 8192
    rw [e0]; omega
  | ⟨1, _⟩ =>
    show win0_1.index t (1 : Fin 2) * 256 + 1 * d.val = d.val
    rw [e1]; omega

/-! ## The scores: the host's product of the inputs and the projection's column, laid out as one row -/

/-- The product's operand indices at output index `i` and contraction index `q`, axis by axis: the left operand is read at
    (`i 0`, `q`), the right at (`q`, `i 1`). -/
theorem dot_lhs_0 (i : S8192x1.Idx) (q : dot_S8192x256_S256x1_S8192x1_1_0_0_1_n_n.contr.Idx) :
    (dot_S8192x256_S256x1_S8192x1_1_0_0_1_n_n.lhsIdx i q 0).val = (i 0).val := by
  unfold DotDims.lhsIdx
  rw [dif_neg (show ¬(0 : Fin S8192x256.rank) ∈ dot_S8192x256_S256x1_S8192x1_1_0_0_1_n_n.lhsBatch by decide), dif_pos (show (0 : Fin S8192x256.rank) ∈ dot_S8192x256_S256x1_S8192x1_1_0_0_1_n_n.lhsNonContracting by decide)]
  rfl
theorem dot_lhs_1 (i : S8192x1.Idx) (q : dot_S8192x256_S256x1_S8192x1_1_0_0_1_n_n.contr.Idx) :
    (dot_S8192x256_S256x1_S8192x1_1_0_0_1_n_n.lhsIdx i q 1).val = (q ⟨0, by decide⟩).val :=
  dot_S8192x256_S256x1_S8192x1_1_0_0_1_n_n.lhsIdx_val_of_single rfl i q
theorem dot_rhs_0 (i : S8192x1.Idx) (q : dot_S8192x256_S256x1_S8192x1_1_0_0_1_n_n.contr.Idx) :
    (dot_S8192x256_S256x1_S8192x1_1_0_0_1_n_n.rhsIdx i q 0).val = (q ⟨0, by decide⟩).val :=
  dot_S8192x256_S256x1_S8192x1_1_0_0_1_n_n.rhsIdx_val_of_single rfl i q
theorem dot_rhs_1 (i : S8192x1.Idx) (q : dot_S8192x256_S256x1_S8192x1_1_0_0_1_n_n.contr.Idx) :
    (dot_S8192x256_S256x1_S8192x1_1_0_0_1_n_n.rhsIdx i q 1).val = (i 1).val := by
  unfold DotDims.rhsIdx
  rw [dif_neg (show ¬(1 : Fin S256x1.rank) ∈ dot_S8192x256_S256x1_S8192x1_1_0_0_1_n_n.rhsBatch by decide), dif_pos (show (1 : Fin S256x1.rank) ∈ dot_S8192x256_S256x1_S8192x1_1_0_0_1_n_n.rhsNonContracting by decide)]
  rfl

/-- Entry (j, 0) of the host's product is the score of column `j`. -/
theorem dot_at (X : (⟨S8192x256, .f32⟩ : BufTy).Contents (Elt Ideal)) (H : (⟨S256x1, .f32⟩ : BufTy).Contents (Elt Ideal)) (j : Fin 8192) :
    Host.dotGeneral (F := Ideal) (φ₁ := .f32) (φ₂ := .f32) dot_S8192x256_S256x1_S8192x1_1_0_0_1_n_n (some .fp32) X H (ix2 j (0 : Fin 1)) = score X H j := by
  unfold score
  simp only [Host.dotGeneral]
  rw [Ideal.dotGeneral_apply, ← Equiv.sum_comp (ValueIdx.contrEquiv1 dot_S8192x256_S256x1_S8192x1_1_0_0_1_n_n 256 rfl rfl).symm]
  refine Finset.sum_congr rfl fun d _ => ?_
  have hd := ValueIdx.contrEquiv1_symm_val dot_S8192x256_S256x1_S8192x1_1_0_0_1_n_n 256 rfl rfl d
  have el : dot_S8192x256_S256x1_S8192x1_1_0_0_1_n_n.lhsIdx (ix2 j (0 : Fin 1)) ((ValueIdx.contrEquiv1 dot_S8192x256_S256x1_S8192x1_1_0_0_1_n_n 256 rfl rfl).symm d) = ix2 j d := funext fun a => Fin.ext (by
    match a with
    | ⟨0, _⟩ => exact dot_lhs_0 _ _
    | ⟨1, _⟩ => exact (dot_lhs_1 _ _).trans hd)
  have er : dot_S8192x256_S256x1_S8192x1_1_0_0_1_n_n.rhsIdx (ix2 j (0 : Fin 1)) ((ValueIdx.contrEquiv1 dot_S8192x256_S256x1_S8192x1_1_0_0_1_n_n 256 rfl rfl).symm d) = ix2 d (0 : Fin 1) := funext fun a => Fin.ext (by
    match a with
    | ⟨0, _⟩ => exact (dot_rhs_0 _ _).trans hd
    | ⟨1, _⟩ => exact dot_rhs_1 _ _)
  rw [el, er]

/-- Laid out as one row, entry (0, j) is entry (j, 0) of the product: the same row-major position. -/
theorem row_at (X : (⟨S8192x256, .f32⟩ : BufTy).Contents (Elt Ideal)) (H : (⟨S256x1, .f32⟩ : BufTy).Contents (Elt Ideal)) (j : Fin 8192) :
    shapeCast S1x8192 (Host.dotGeneral (F := Ideal) (φ₁ := .f32) (φ₂ := .f32) dot_S8192x256_S256x1_S8192x1_1_0_0_1_n_n (some .fp32) X H) shapeCasts_S8192x1_S1x8192 (ix2 (0 : Fin 1) j) = score X H j := by
  rw [shapeCast_apply _ shapeCasts_S8192x1_S1x8192 (ix2 (0 : Fin 1) j) (ix2 j (0 : Fin 1)) (by
    rewrite [Shape.rowMajor_val_two, Shape.rowMajor_val_two]
    show j.val * 1 + 0 = 0 * 8192 + j.val
    omega)]
  exact dot_at X H j

/-- What the region finds in the scores' array: the host's product, as one row. -/
theorem V_scores (c : Dev nD) :
    (V m c main_v1 : S1x8192.Idx → EReal)
      = shapeCast S1x8192 (Host.dotGeneral (F := Ideal) (φ₁ := .f32) (φ₂ := .f32) dot_S8192x256_S256x1_S8192x1_1_0_0_1_n_n (some .fp32) (m ((c : Thread nD τ).loc main_arg0)) (m ((c : Thread nD τ).loc main_arg2))) shapeCasts_S8192x1_S1x8192 := by
  dsimp only [Gen.V, Gen.hostOps0]
  after_results
  rfl

/-- The score block at `t` is tile `t % 16` of the scores. -/
theorem score_block (c : Dev nD) (t : Fin cfg0.N) :
    Body.scoreRow (scoBlk m c t) = scoreT (argX m c) (argH m c) (t.val % 16) := by
  funext k
  show V m c main_v1 (((cfg0.win 2).blk t).view.emb (ix2 (0 : Fin 1) k)) = score (argX m c) (argH m c) (col (t.val % 16) k)
  have hi : ((cfg0.win 2).blk t).view.emb (ix2 (0 : Fin 1) k) = ix2 (0 : Fin 1) (col (t.val % 16) k) := by
    funext a; apply Fin.ext
    obtain ⟨e0, e1⟩ := idx2 t
    have ht := lt64 t
    have hk : k.val < 512 := k.isLt
    match a with
    | ⟨0, _⟩ =>
      show win0_2.index t (0 : Fin 2) * 1 + 1 * 0 = 0
      rw [e0]
    | ⟨1, _⟩ =>
      show win0_2.index t (1 : Fin 2) * 512 + 1 * k.val = (512 * (t.val % 16) + k.val) % 8192
      rw [e1]; omega
  rw [hi, V_scores]
  exact row_at _ _ _

end Cert.MaskedSoftmax.Blocks

end
-- ==== Proof.Sweep.lean ====
/-
  The carried buffers, entry by entry, are the sweep. Grid point `t` is row tile `t / 16` and column
  tile `t % 16`; block row `r` there is row `2048 (t / 16) + r` of the adjacency. After the body at `t`
  the running maximum and normaliser at row `r`, and the running weighted sum at (r, d), are the
  three components of `run` for that row and column `d` of the inputs after column tiles
  `0 … t % 16`: at the first column tile the body starts from what it has just stored (-inf, 0, 0),
  which is the sweep's start; at every later one it updates what the point before left, which by
  induction is the sweep one tile earlier, and the row does not change while the column tile moves.
  At the last column tile the block written out is `finish` of that state, entry by entry.
-/
import proofs.«119822_j65575560675684_2_alg».proof.Proof.Gen.KernelIdeal.Value
import proofs.«119822_j65575560675684_2_alg».proof.Proof.Pieces
import proofs.«119822_j65575560675684_2_alg».proof.Proof.TileStep
import proofs.«119822_j65575560675684_2_alg».proof.Proof.Blocks

set_option maxRecDepth 16384

noncomputable section

open scoped BigOperators

namespace Cert.MaskedSoftmax.Sweep

open Idealize.ShloMosaic Idealize.ShloMosaic.TcCoe Idealize.ShloMosaic.ValueIdx Idealize.SL.Sem
open Cert.KernelIdeal Cert.KernelIdeal.Gen Cert.MaskedSoftmax Cert.MaskedSoftmax.Blocks Cert.MaskedSoftmax.Body

variable (m : (ℓ : Loc nD τ sig) → Buf (Elt Ideal) ℓ)

/-- The sweep of the row that block row `r` is at point `t`, for column `d` of the inputs, through column tile `t % 16`. -/
def st (c : Dev nD) (t : Fin cfg0.N) (r : Fin 2048) (d : Fin 256) : EReal × EReal × EReal :=
  run fill (adjT (argA m c) (grow t r)) (scoreT (argX m c) (argH m c)) (valT (argX m c) d) (t.val % 16)

/-- The three carried buffers after point `n`, at row `r` and entry (r, d). -/
def carriedAt (c : Dev nD) (n : ℕ) (hn : n < cfg0.N) (r : Fin 2048) (d : Fin 256) : EReal × EReal × EReal :=
  ((outsAt0 m c n hn).2.1 (ix2 r (0 : Fin 1)), (outsAt0 m c n hn).2.2.1 (ix2 r (0 : Fin 1)), (outsAt0 m c n hn).2.2.2 (ix2 r d))

/-- The body's three stored terms at point `t`, over any previous contents, are one tile step at that entry:
    the tile is column tile `t % 16` of the row's data. -/
theorem step_at (c : Dev nD) (t : Fin cfg0.N) (r : Fin 2048) (d : Fin 256) (xs0 xs1 : Vec Ideal S2048x1 .f32) (xs2 : Vec Ideal S2048x256 .f32) :
    (k0_pay2 (F := Ideal) (k0_pay9 (adjBlk m c t) (scoBlk m c t) xs0) (ix2 r (0 : Fin 1)),
     k0_pay12 (F := Ideal) (adjBlk m c t) (scoBlk m c t) xs0 xs0 xs1 (ix2 r (0 : Fin 1)),
     k0_pay1 (F := Ideal) (inpBlk m c t) (k0_pay10 (adjBlk m c t) (scoBlk m c t) xs0 xs0) (k0_pay11 (adjBlk m c t) (scoBlk m c t) xs0) xs2 (ix2 r d))
      = stepT fill (adjT (argA m c) (grow t r) (t.val % 16)) (scoreT (argX m c) (argH m c) (t.val % 16)) (valT (argX m c) d (t.val % 16))
          (xs0 (ix2 r (0 : Fin 1)), xs1 (ix2 r (0 : Fin 1)), xs2 (ix2 r d)) := by
  rw [← adj_block m c t r, ← score_block m c t, ← val_block m c t d]
  exact Prod.ext (max_at _ (inpBlk m c t) _ xs0 xs1 xs2 r d) (Prod.ext (norm_at _ (inpBlk m c t) _ xs0 xs1 xs2 r d) (acc_at _ _ _ xs0 xs1 xs2 r d))

/-- At a first column tile the carried buffers are the sweep's first step from its start. -/
theorem carried_first (c : Dev nD) (t : Fin cfg0.N) (h0 : t.val % 16 = 0) (r : Fin 2048) (d : Fin 256) :
    carriedAt m c t.val t.isLt r d = st m c t r d := by
  have h1 : ¬t.val % 16 = 15 := by omega
  unfold carriedAt
  rw [outsAt0_A m c t h0 h1]
  dsimp only
  rw [Pieces.max_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), Pieces.norm_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), Pieces.acc_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)]
  refine (step_at m c t r d (k0_pay4 (F := Ideal)) (k0_pay5 (F := Ideal)) (k0_pay6 (F := Ideal))).trans ?_
  rw [reset_max, reset_norm, reset_acc]
  unfold st
  rw [h0]
  rfl

/-- At a later column tile the carried buffers are one more step of the sweep: the row is the same as at the point
    before, and the column tile is the next one. -/
theorem carried_next (c : Dev nD) (t : Fin cfg0.N) (h0 : ¬t.val % 16 = 0) (r : Fin 2048) (d : Fin 256)
    (ih : carriedAt m c (t.val - 1) (Nat.lt_of_le_of_lt (Nat.sub_le _ _) t.isLt) r d
      = st m c ⟨t.val - 1, Nat.lt_of_le_of_lt (Nat.sub_le _ _) t.isLt⟩ r d) :
    carriedAt m c t.val t.isLt r d = st m c t r d := by
  have hN : t.val < 64 := lt_of_lt_of_eq t.isLt (show cfg0.N = 64 from N_0)
  obtain ⟨J, hJ⟩ : ∃ J, t.val % 16 = J + 1 := ⟨t.val % 16 - 1, by omega⟩
  have hJ' : (t.val - 1) % 16 = J := by omega
  have hg : grow ⟨t.val - 1, Nat.lt_of_le_of_lt (Nat.sub_le _ _) t.isLt⟩ r = grow t r := by
    apply Fin.ext
    show (2048 * ((t.val - 1) / 16) + r.val) % 8192 = (2048 * (t.val / 16) + r.val) % 8192
    have : (t.val - 1) / 16 = t.val / 16 := by omega
    rw [this]
  -- the step the body takes at `t` from the previous contents is the sweep's step
  have hstep : stepT fill (adjT (argA m c) (grow t r) (t.val % 16)) (scoreT (argX m c) (argH m c) (t.val % 16)) (valT (argX m c) d (t.val % 16))
      ((outsAt0 m c (t.val - 1) (Nat.lt_of_le_of_lt (Nat.sub_le _ _) t.isLt)).2.1 (ix2 r (0 : Fin 1)), (outsAt0 m c (t.val - 1) (Nat.lt_of_le_of_lt (Nat.sub_le _ _) t.isLt)).2.2.1 (ix2 r (0 : Fin 1)), (outsAt0 m c (t.val - 1) (Nat.lt_of_le_of_lt (Nat.sub_le _ _) t.isLt)).2.2.2 (ix2 r d))
        = st m c t r d := by
    have ih' : ((outsAt0 m c (t.val - 1) (Nat.lt_of_le_of_lt (Nat.sub_le _ _) t.isLt)).2.1 (ix2 r (0 : Fin 1)), (outsAt0 m c (t.val - 1) (Nat.lt_of_le_of_lt (Nat.sub_le _ _) t.isLt)).2.2.1 (ix2 r (0 : Fin 1)), (outsAt0 m c (t.val - 1) (Nat.lt_of_le_of_lt (Nat.sub_le _ _) t.isLt)).2.2.2 (ix2 r d))
        = run fill (adjT (argA m c) (grow t r)) (scoreT (argX m c) (argH m c)) (valT (argX m c) d) J := by
      have := ih
      unfold carriedAt st at this
      rw [hg] at this
      simp only [hJ'] at this
      exact this
    rw [ih']
    unfold st
    rw [hJ]
    rfl
  by_cases h1 : t.val % 16 = 15
  ·
    unfold carriedAt
    rw [outsAt0_C m c t h0 h1]
    dsimp only
    rw [Pieces.max_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Pieces.norm_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Pieces.acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    refine (step_at m c t r d (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    exact hstep
  ·
    unfold carriedAt
    rw [outsAt0_B m c t h0 h1]
    dsimp only
    rw [Pieces.max_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Pieces.norm_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Pieces.acc_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    refine (step_at m c t r d (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
    exact hstep

/-- After every point the carried buffers are the sweep through that point's column tile. -/
theorem carried (c : Dev nD) : ∀ (n : ℕ) (hn : n < cfg0.N) (r : Fin 2048) (d : Fin 256),
    carriedAt m c n hn r d = st m c ⟨n, hn⟩ r d := by
  intro n
  induction n with
  | zero => intro hn r d; exact carried_first m c ⟨0, hn⟩ rfl r d
  | succ n ih =>
    intro hn r d
    by_cases h0 : (n + 1) % 16 = 0
    · exact carried_first m c ⟨n + 1, hn⟩ h0 r d
    · exact carried_next m c ⟨n + 1, hn⟩ h0 r d (ih (Nat.lt_of_succ_lt hn) r d)

/-- At a last column tile the block the body writes out is, entry by entry, `finish` of the row's whole sweep. -/
theorem written_out (c : Dev nD) (t : Fin cfg0.N) (h1 : t.val % 16 = 15) (r : Fin 2048) (d : Fin 256) :
    (outsAt0 m c t.val t.isLt).1 (ix2 r d)
      = finish (run fill (adjT (argA m c) (grow t r)) (scoreT (argX m c) (argH m c)) (valT (argX m c) d) 15) := by
  have h0 : ¬t.val % 16 = 0 := by omega
  have hc := carried m c t.val t.isLt r d
  unfold carriedAt st at hc
  rw [h1] at hc
  rw [← hc]
  -- the written block is the quotient of the updated weighted sum by the updated normaliser
  have hout : (outsAt0 m c t.val t.isLt).1 = k0_pay3 (F := Ideal) (outsAt0 m c t.val t.isLt).2.2.1 (outsAt0 m c t.val t.isLt).2.2.1 (outsAt0 m c t.val t.isLt).2.2.2 := by
    rw [outsAt0_C m c t h0 h1]
    dsimp only
    rw [Pieces.out_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Pieces.norm_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, Pieces.acc_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  rw [hout]
  exact out_at r d _ _ _

end Cert.MaskedSoftmax.Sweep

end
-- ==== Proof.Finite.lean ====
/-
  From the precondition to real numbers. The precondition says that for each of the three inputs every
  entry's absolute value is below +inf, all of these conjoined into one bit. An extended real whose
  absolute value `max x (-x)` is below the top element is neither infinity, hence a real number.
-/
import proofs.«119822_j65575560675684_2_alg».proof.Pre_finite_inputs
import proofs.«119822_j65575560675684_2_alg».proof.Proof.Gen.Pre_finite_inputs
import Idealize.ShloMosaic.Lib.ReduceAll
import Idealize.ShloMosaic.Lib.ValueIdx
import Idealize.ShloMosaic.PureOps.Ideal.Laws

noncomputable section

namespace Cert.MaskedSoftmax.Finite

open Idealize.ShloMosaic Idealize.ShloMosaic.ValueIdx Cert.Pre_finite_inputs

/-- The f32 pattern `0x7F800000` (sign 0, exponent all ones, significand 0) is the top element. -/
theorem ofBits_inf : Ideal.ofBits .f32 0x7F800000#32 = ⊤ := by
  simp [Ideal.ofBits, Ideal.ieee]

/-- An extended real whose absolute value `max x (-x)` is below the top element is a real number:
    at either infinity the absolute value is the top element itself. -/
theorem real_of_abs_lt_top (x : EReal) (h : max x (-x) < ⊤) : ∃ r : ℝ, x = (r : EReal) := by
  induction x using EReal.rec with
  | bot => rw [EReal.neg_bot, max_bot_left] at h; exact absurd h (lt_irrefl _)
  | coe r => exact ⟨r, rfl⟩
  | top => rw [max_eq_left (le_top)] at h; exact absurd h (lt_irrefl _)

/-- The result of the reductions has a single index. -/
local instance : Subsingleton S_.Idx := ⟨fun _ _ => funext fun d => d.elim0⟩

/-- One input. Where the conjunction over all entries of "the absolute value is below +inf" is one,
    every entry is a real number: the conjunction gives the comparison at each index, the comparison is
    the order's `<` against the top element, and the absolute value is `max x (-x)`. -/
theorem real_of_all {s : Shape} {axes : List (Fin s.rank)} (hb : S_.BroadcastsInDim s (![] : Fin 0 → Fin s.rank))
    (hr : s.ReducesTo axes S_) (hu : 0 < S_.numel) (X : FVec Ideal s .f32)
    (e : Host.reduce IntOp.andi
        (cmpf .olt (Host.absf X) (broadcastInDim s ![] hb (constant (F := Ideal) S_ .f32 0x7F800000#32)))
        (constantI S_ 1 1#1) hr hu ix0 = 1#1) (i : s.Idx) :
    ∃ r : ℝ, X i = (r : EReal) := by
  have hi := Host.reduce_andi_all _ _ hr hu ix0 e i
  change Ideal.cmp .olt (max (X i) (-(X i))) (Ideal.ofBits .f32 0x7F800000#32) = 1#1 at hi
  rw [ofBits_inf] at hi
  refine real_of_abs_lt_top (X i) ?_
  by_contra hlt
  have h0 : Ideal.cmp .olt (max (X i) (-(X i))) ⊤ = 0#1 := by
    show BitVec.ofBool (decide (max (X i) (-(X i)) < ⊤)) = 0#1
    rw [decide_eq_false hlt]
    rfl
  rw [h0] at hi
  exact absurd hi (by decide)

/-- Where the finiteness predicate is all ones, every entry of each input is a real number. -/
theorem real_of_pre [Cert.Pre_finite_inputs.Facts] (X : FVec Ideal S8192x256 .f32) (A : FVec Ideal S8192x8192 .f32) (H : FVec Ideal S256x1 .f32)
    (h : Cert.Pre_finite_inputs.fn (F := Ideal) X A H = fun _ => 1#1) :
    (∀ i, ∃ x : ℝ, X i = (x : EReal)) ∧ (∀ i, ∃ a : ℝ, A i = (a : EReal)) ∧ (∀ i, ∃ b : ℝ, H i = (b : EReal)) := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨real_of_all _ _ _ X h1, real_of_all _ _ _ A h2, real_of_all _ _ _ H h3⟩

end Cert.MaskedSoftmax.Finite

end
-- ==== Proof.Result.lean ====
/-
  The kernel's result array. Only the last column tile of each row tile writes its output block back;
  that block is `finish` of each of its rows' whole sweep, which on real inputs is the row's one-pass
  aggregate, i.e. the block of `G` at rows `2048 (t / 16) …`. The four written blocks tile the
  8192 rows, so after the run the array is `G` of the three inputs.
-/
import proofs.«119822_j65575560675684_2_alg».proof.Proof.Sweep
import proofs.«119822_j65575560675684_2_alg».proof.Proof.Finite

set_option maxRecDepth 16384

noncomputable section

open scoped BigOperators

namespace Cert.MaskedSoftmax.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value Cert.MaskedSoftmax Cert.MaskedSoftmax.Blocks Cert.MaskedSoftmax.Sweep

variable (m : (ℓ : Loc nD τ sig) → Buf (Elt Ideal) ℓ) (ρ : Dev nD → PrngReg)

/-- Every entry of the three inputs on core `c` is a real number. -/
def RealInputs (c : Dev nD) : Prop :=
  (∀ i, ∃ x : ℝ, argX m c i = (x : EReal)) ∧ (∀ i, ∃ a : ℝ, argA m c i = (a : EReal)) ∧ (∀ i, ∃ b : ℝ, argH m c i = (b : EReal))

/-- The output window's block index at point `t`: row tile `t / 16`, the one column tile. -/
theorem out_index : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- The fill is a real number (the most negative finite single-precision value; which one does not matter). -/
theorem fill_real : ∃ ν' : ℝ, fill = (ν' : EReal) := by
  show ∃ ν' : ℝ, Ideal.ieee 8 23 (0xFF7FFFFF#32 : BitVec 32) = (ν' : EReal)
  unfold Ideal.ieee
  dsimp only
  rw [if_neg (by decide), if_neg (by decide)]
  exact ⟨_, rfl⟩

/-- A score of real inputs against a real projection is a real number: a finite sum of products of reals. -/
theorem score_real (X : (⟨2, ![8192, 256]⟩ : Shape).Idx → EReal) (H : (⟨2, ![256, 1]⟩ : Shape).Idx → EReal)
    (hX : ∀ i, ∃ x : ℝ, X i = (x : EReal)) (hH : ∀ i, ∃ b : ℝ, H i = (b : EReal)) (j : Fin 8192) :
    ∃ s : ℝ, score X H j = (s : EReal) := by
  choose x hx using hX
  choose b hb using hH
  refine ⟨∑ d : Fin 256, x (ix2 j d) * b (ix2 d (0 : Fin 1)), ?_⟩
  unfold score
  rw [coe_sum]
  exact Finset.sum_congr rfl fun d _ => by rw [hx, hb, EReal.coe_mul]

/-- WHAT A FLUSHING POINT WRITES BACK: at a last column tile, the block written out is the block of `G` that the
    output window's index names: rows `2048 (t / 16) …`, every column. Entry (r, d) of the written block is `finish` of
    the whole sweep of row `2048 (t / 16) + r`, which on real data is that row's one-pass aggregate. -/
theorem flushed_eq (c : Dev nD) (hr : RealInputs m c) (t : Fin cfg0.N) (hf : (cfg0.win 3).flush t = true) :
    (dats m 0 c).flushed 3 t = ((cfg0.win 3).blk t).view.read (Elt Ideal) (G fill (argX m c) (argA m c) (argH m c)) := by
  have h1 : t.val % 16 = 15 := (flush0_3 t).mp hf
  have hN : t.val < 64 := lt_of_lt_of_eq t.isLt (show cfg0.N = 64 from N_0)
  rw [flushed3]
  funext j
  obtain ⟨r, d, rfl⟩ : ∃ (r : Fin 2048) (d : Fin 256), j = ix2 r d := ⟨j 0, j 1, eq_ix2 j⟩
  show (outsAt0 m c t.val t.isLt).1 (ix2 r d) = G fill (argX m c) (argA m c) (argH m c) (((cfg0.win 3).blk t).view.emb (ix2 r d))
  rw [written_out m c t h1 r d]
  -- the row's data are real, so the sweep's end is the one-pass form
  obtain ⟨ν', hν⟩ := fill_real
  choose x' hx using hr.1
  choose a' ha using hr.2.1
  choose s' hs using score_real (argX m c) (argH m c) hr.1 hr.2.2
  rw [finish_run ν' (fun J k => a' (ix2 (grow t r) (col J k))) (fun J k => s' (col J k)) (fun J k => x' (ix2 (col J k) d))
    fill (adjT (argA m c) (grow t r)) (scoreT (argX m c) (argH m c)) (valT (argX m c) d) hν (fun J k => ha _) (fun J k => hs _) (fun J k => hx _)]
  -- the entry's place in the array: row `2048 (t / 16) + r`, column `d`
  obtain ⟨e0, e1⟩ := out_index t
  have he : ((cfg0.win 3).blk t).view.emb (ix2 r d) = ix2 (grow t r) d := by
    funext a; apply Fin.ext
    match a with
    | ⟨0, _⟩ =>
      show win0_3.index t (0 : Fin 2) * 2048 + 1 * r.val = (2048 * (t.val / 16) + r.val) % 8192
      have hr' : r.val < 2048 := r.isLt
      rw [e0]; omega
    | ⟨1, _⟩ =>
      show win0_3.index t (1 : Fin 2) * 256 + 1 * d.val = d.val
      rw [e1]; omega
  rw [he]
  rfl

/-- An index of the array is in point `t`'s output block iff each coordinate is in the block's range on its axis. -/
theorem mem_blk (t : Fin cfg0.N) (i : S8192x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v2).slice (win0_3.rect t)).set ↔ _
  rw [View.set_slice_whole, Rect.mem_set_unit]
  exact Iff.rfl

/-- THE COVER: row `i` lies in the block written at the last column tile of row tile `i / 2048`. -/
theorem cover (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  have hN : cfg0.N = 64 := N_0
  have hb : 16 * ((i 0).val / 2048) + 15 < cfg0.N := by rw [hN]; omega
  obtain ⟨e0, e1⟩ := out_index ⟨16 * ((i 0).val / 2048) + 15, hb⟩
  refine ⟨⟨16 * ((i 0).val / 2048) + 15, hb⟩, (flush0_3 _).mpr (by show (16 * ((i 0).val / 2048) + 15) % 16 = 15; omega), ?_⟩
  rw [mem_blk]
  intro a
  match a with
  | ⟨0, _⟩ =>
    show win0_3.index ⟨16 * ((i 0).val / 2048) + 15, hb⟩ (0 : Fin 2) * 2048 ≤ (i 0).val ∧ (i 0).val < win0_3.index ⟨16 * ((i 0).val / 2048) + 15, hb⟩ (0 : Fin 2) * 2048 + 2048
    rw [e0]; show (16 * ((i 0).val / 2048) + 15) / 16 * 2048 ≤ (i 0).val ∧ (i 0).val < (16 * ((i 0).val / 2048) + 15) / 16 * 2048 + 2048; omega
  | ⟨1, _⟩ =>
    show win0_3.index ⟨16 * ((i 0).val / 2048) + 15, hb⟩ (1 : Fin 2) * 256 ≤ (i 1).val ∧ (i 1).val < win0_3.index ⟨16 * ((i 0).val / 2048) + 15, hb⟩ (1 : Fin 2) * 256 + 256
    rw [e1]; omega

/-- THE ARRAY after the run: `G` of the three inputs. -/
theorem final (c : Dev nD) (hr : RealInputs m c) :
    (dats m 0 c).arrAt 3 cfg0.N = G fill (argX m c) (argA m c) (argH m c) :=
  (dats m 0 c).arrAt_eq_of_cover 3 (G fill (argX m c) (argA m c) (argH m c)) (fun t hf => flushed_eq m c hr t hf) cover

/-- The kernel's run: it ends with its result at `G` of the three inputs, and the inputs unchanged. -/
theorem kernel_run (hr : ∀ c, RealInputs m c) :
    θ_run defs (onTc (τ := τ) (main (F := Ideal))) ⟨m, fun _ => 0, ρ⟩ fun r => ∀ c : Dev nD,
      r.2.mem ((c : Thread nD τ).loc main_v2) = G fill (argX m c) (argA m c) (argH m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hr c)), (h c).2⟩) (run_blocks m ρ)

end Cert.MaskedSoftmax.Result

end
-- ==== Proof.lean ====
/-
  Masked softmax attention over a dense adjacency, computed tile by tile, against its one-pass reference.

  With `scores j = inputs[j] · H_v`, row `i` of the result is
      Σ_j w_ij / Z_i · inputs[j],   w_ij = exp (adj_ij · scores_j − M_i) where adj_ij ≠ 0 and 0 elsewhere,
  `M_i` the largest masked logit of the row (the masked-out ones replaced by the most negative finite
  single-precision number), `Z_i = Σ_j w_ij`, replaced by 1 where it is not positive.

  The reference computes this in one pass over the whole row. The kernel walks each row tile of 2048
  rows through 16 column tiles of 512 columns, carrying a running maximum `m`, normaliser `l` and
  weighted sum `acc` per row; at each column tile it rescales `l` and `acc` by `exp (m_old − m_new)`
  and adds the tile's weights against `m_new`; after the last column tile it writes `acc · (1 / l)`
  (0 where `l` is not positive). Over the extended reals the two agree when every input is a real
  number, which is the precondition: the rescalings telescope (`exp (u − v) · exp (v − w) = exp (u − w)`),
  the running maximum ends at the row maximum, and dividing a finite sum of reals by a positive real
  distributes over its terms; an all-masked row gives 0 on both sides.

  The modules: `OnlineSoftmax` (the sweep, the one-pass form, their equality on reals), `RowTiles` (the
  8192 columns as 16 tiles of 512), `RefRow` (the reference, entry by entry, is the one-pass form),
  `Pieces` and `TileStep` (one pass of the kernel body is one step of the sweep at each entry),
  `Blocks` (the input blocks at a grid point are tiles of the argument arrays), `Sweep` (the carried
  buffers are the sweep, by induction over the grid points), `Finite` (the precondition makes every
  input entry real), `Result` (the kernel's result array is the one-pass form).
-/
import proofs.«119822_j65575560675684_2_alg».proof.Defs
import proofs.«119822_j65575560675684_2_alg».proof.Proof.Gen.Kernel
import proofs.«119822_j65575560675684_2_alg».proof.Proof.Gen.Kernel.Skeleton
import proofs.«119822_j65575560675684_2_alg».proof.Proof.Gen.Kernel.Launch
import proofs.«119822_j65575560675684_2_alg».proof.Proof.Gen.Kernel.Points
import proofs.«119822_j65575560675684_2_alg».proof.Proof.Gen.Kernel.Frame
import proofs.«119822_j65575560675684_2_alg».proof.Proof.Gen.KernelIdeal
import proofs.«119822_j65575560675684_2_alg».proof.Proof.Gen.KernelIdeal.Skeleton
import proofs.«119822_j65575560675684_2_alg».proof.Proof.Gen.KernelIdeal.Launch
import proofs.«119822_j65575560675684_2_alg».proof.Proof.Gen.KernelIdeal.Points
import proofs.«119822_j65575560675684_2_alg».proof.Proof.Gen.KernelIdeal.Frame
import proofs.«119822_j65575560675684_2_alg».proof.Proof.Gen.ReferenceIdeal
import proofs.«119822_j65575560675684_2_alg».proof.Proof.Gen.Pre_finite_inputs
import proofs.«119822_j65575560675684_2_alg».proof.Proof.Gen.KernelIdeal.Value
import proofs.«119822_j65575560675684_2_alg».proof.Proof.Gen.ReferenceIdeal.Run
import proofs.«119822_j65575560675684_2_alg».proof.Proof.Gen.ReferenceIdeal.Read
import proofs.«119822_j65575560675684_2_alg».proof.Proof.RefRow
import proofs.«119822_j65575560675684_2_alg».proof.Proof.Result
import Idealize.ShloMosaic.Adequacy
import Idealize.ShloMosaic.Init

noncomputable section

namespace Cert.Proof

open Idealize.ShloMosaic Idealize.SL.Sem Cert.MaskedSoftmax

/-- The two word-level and idealized kernels run, nothing faulting, their arguments unchanged. -/
theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
/-- The reference runs: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- On real inputs both programs end with the one-pass form `G` of the three inputs as their result. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => G fill (Blocks.argX m c) (Blocks.argA m c) (Blocks.argH m c),
    Result.kernel_run m ρ (fun c => Finite.real_of_pre _ _ _ (hpre c)), ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v21_eq, Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
